-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000x4 : Shape := ⟨2, ![100000, 4]⟩
abbrev S3x64x64 : Shape := ⟨3, ![3, 64, 64]⟩
abbrev S3x64 : Shape := ⟨2, ![3, 64]⟩
abbrev S4x3 : Shape := ⟨2, ![4, 3]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S100000x4 : S_.BroadcastsInDim S100000x4 (![] : Fin 0 → Fin S100000x4.rank)
  reducesTo_S100000x4_S_d0_1 : S100000x4.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S4x3 : S_.BroadcastsInDim S4x3 (![] : Fin 0 → Fin S4x3.rank)
  reducesTo_S4x3_S_d0_1 : S4x3.ReducesTo [0, 1] S_

variable [Facts]

def fn_part1 {F : FTy → Type} [FloatOps F] (main_arg5 : FVec F S4x3 .f32) (main_v13 : IVec S_ 1) (main_v16 : IVec S3x64 1) : IVec S_ 1 :=
  let main_c_5 : IVec S_ 1 := constantI S_ 1 1#1
  let main_v17 : IVec S_ 1 := (fun x v => Host.reduce IntOp.andi x v reducesTo_S3x64_S_d0_1 h_S_) main_v16 main_c_5
  let main_v18 : IVec S_ 1 := andi main_v13 main_v17
  let main_v19 : FVec F S4x3 .f32 := Host.absf main_arg5
  let main_cst_6 : FVec F S_ .f32 := constant S_ .f32 0x7F800000#32
  let main_v20 : FVec F S4x3 .f32 := broadcastInDim S4x3 ![] bcast_S_S4x3 main_cst_6
  let main_v21 : IVec S4x3 1 := cmpf .olt main_v19 main_v20
  let main_c_7 : IVec S_ 1 := constantI S_ 1 1#1
  let main_v22 : IVec S_ 1 := (fun x v => Host.reduce IntOp.andi x v reducesTo_S4x3_S_d0_1 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S100000x4 .f32) (main_arg3 : FVec F S3x64x64 .f32) (main_arg4 : FVec F S3x64 .f32) (main_arg5 : FVec F S4x3 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x4 .f32 := Host.absf main_arg2
  let main_cst_0 : FVec F S_ .f32 := constant S_ .f32 0x7F800000#32
  let main_v5 : FVec F S100000x4 .f32 := broadcastInDim S100000x4 ![] bcast_S_S100000x4 main_cst_0
  let main_v6 : IVec S100000x4 1 := cmpf .olt main_v4 main_v5
  let main_c_1 : IVec S_ 1 := constantI S_ 1 1#1
  let main_v7 : IVec S_ 1 := (fun x v => Host.reduce IntOp.andi x v reducesTo_S100000x4_S_d0_1 h_S_) main_v6 main_c_1
  let main_v8 : IVec S_ 1 := andi main_v3 main_v7
  let main_v9 : FVec F S3x64x64 .f32 := Host.absf main_arg3
  let main_cst_2 : FVec F S_ .f32 := constant S_ .f32 0x7F800000#32
  let main_v10 : FVec F S3x64x64 .f32 := broadcastInDim S3x64x64 ![] bcast_S_S3x64x64 main_cst_2
  let main_v11 : IVec S3x64x64 1 := cmpf .olt main_v9 main_v10
  let main_c_3 : IVec S_ 1 := constantI S_ 1 1#1
  let main_v12 : IVec S_ 1 := (fun x v => Host.reduce IntOp.andi x v reducesTo_S3x64x64_S_d0_1_2 h_S_) main_v11 main_c_3
  let main_v13 : IVec S_ 1 := andi main_v8 main_v12
  let main_v14 : FVec F S3x64 .f32 := Host.absf main_arg4
  let main_cst_4 : FVec F S_ .f32 := constant S_ .f32 0x7F800000#32
  let main_v15 : FVec F S3x64 .f32 := broadcastInDim S3x64 ![] bcast_S_S3x64 main_cst_4
  let main_v16 : IVec S3x64 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S100000x4 : Shape := ⟨2, ![100000, 4]⟩
abbrev S3x64x64 : Shape := ⟨3, ![3, 64, 64]⟩
abbrev S3x64 : Shape := ⟨2, ![3, 64]⟩
abbrev S4x3 : Shape := ⟨2, ![4, 3]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S5000x64 : Shape := ⟨2, ![5000, 64]⟩
abbrev S5000x4 : Shape := ⟨2, ![5000, 4]⟩
abbrev S5000x3 : Shape := ⟨2, ![5000, 3]⟩
abbrev S5000 : Shape := ⟨1, ![5000]⟩
abbrev S5000x1 : Shape := ⟨2, ![5000, 1]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩

abbrev nBuf : Space → Nat
  | .hbm => 63
  | .vmem => 9
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000x4, .f32⟩
  | .hbm, ⟨3, _⟩ => ⟨S3x64x64, .f32⟩
  | .hbm, ⟨4, _⟩ => ⟨S3x64, .f32⟩
  | .hbm, ⟨5, _⟩ => ⟨S4x3, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S1700000x1, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x64, .f32⟩
  | .hbm, ⟨57, _⟩ => ⟨S1700000x64, .f32⟩
  | .hbm, ⟨58, _⟩ => ⟨S_, .f32⟩
  | .hbm, ⟨59, _⟩ => ⟨S100000x64, .f32⟩
  | .hbm, ⟨60, _⟩ => ⟨S1700000x1, .i32⟩
  | .hbm, ⟨61, _⟩ => ⟨S100000x64, .f32⟩
  | .hbm, ⟨62, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x4, .f32⟩
  | .local _ .vmem, ⟨3, _⟩ => ⟨S5000x4, .f32⟩
  | .local _ .vmem, ⟨4, _⟩ => ⟨S3x64x64, .f32⟩
  | .local _ .vmem, ⟨5, _⟩ => ⟨S3x64, .f32⟩
  | .local _ .vmem, ⟨6, _⟩ => ⟨S4x3, .f32⟩
  | .local _ .vmem, ⟨7, _⟩ => ⟨S5000x64, .f32⟩
  | .local _ .vmem, ⟨8, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x4_S5000x4_0_0 : ∀ a, (![0, 0] : Fin 2 → Nat) a + S5000x4.size a ≤ S5000x4.size a
  h_S5000x4 : 0 < S5000x4.numel
  inb_S4x3_S4x3_0_0 : ∀ a, (![0, 0] : Fin 2 → Nat) a + S4x3.size a ≤ S4x3.size a
  h_S4x3 : 0 < S4x3.numel
  bitsLt_bf16_f32 : FTy.bits .bf16 < FTy.bits .f32
  reduces_S5000x3_S5000 : S5000x3.Reduces [1] S5000
  shapeCasts_S5000_S5000x1 : S5000.ShapeCasts S5000x1
  broadcasts_S5000x1_S5000x3 : S5000x1.Broadcasts S5000x3
  inb_S3x64x64_S1x64x64_0_0_0 : ∀ a, (![0, 0, 0] : Fin 3 → Nat) a + S1x64x64.size a ≤ S3x64x64.size a
  h_S1x64x64 : 0 < S1x64x64.numel
  shapeCasts_S1x64x64_S64x64 : S1x64x64.ShapeCasts S64x64
  inb_S3x64_S1x64_0_0 : ∀ a, (![0, 0] : Fin 2 → Nat) a + S1x64.size a ≤ S3x64.size a
  h_S1x64 : 0 < S1x64.numel
  shapeCasts_S1x64_S64 : S1x64.ShapeCasts S64
  shapeCasts_S64_S1x64 : S64.ShapeCasts S1x64
  broadcasts_S1x64_S5000x64 : S1x64.Broadcasts S5000x64
  slices_S5000x3_o0_0_S5000x1 : S5000x3.Slices ![0, 0] S5000x1
  broadcasts_S5000x1_S5000x64 : S5000x1.Broadcasts S5000x64
  inb_S3x64x64_S1x64x64_1_0_0 : ∀ a, (![1, 0, 0] : Fin 3 → Nat) a + S1x64x64.size a ≤ S3x64x64.size a
  inb_S3x64_S1x64_1_0 : ∀ a, (![1, 0] : Fin 2 → Nat) a + S1x64.size a ≤ S3x64.size a
  slices_S5000x3_o0_1_S5000x1 : S5000x3.Slices ![0, 1] S5000x1
  inb_S3x64x64_S1x64x64_2_0_0 : ∀ a, (![2, 0, 0] : Fin 3 → Nat) a + S1x64x64.size a ≤ S3x64x64.size a
  inb_S3x64_S1x64_2_0 : ∀ a, (![2, 0] : Fin 2 → Nat) a + S1x64.size a ≤ S3x64.size a
  slices_S5000x3_o0_2_S5000x1 : S5000x3.Slices ![0, 2] S5000x1
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x4_S4x3_S5000x3_1_0_0_1_n_n_wf : DotDims.WF S5000x4 S4x3 S5000x3 [1] [0] [0] [1] [] []
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x4.size a ≤ S100000x4.size a
  hwx0_1 : ∀ i : grid0.Coords, EltTy.bits .f32 = 32 ∨ (Rect.block (s := S100000x4) S5000x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x64x64.size a ≤ S3x64x64.size a
  hwx0_2 : ∀ i : grid0.Coords, EltTy.bits .f32 = 32 ∨ (Rect.block (s := S3x64x64) S3x64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x64.size a ≤ S3x64.size a
  hwx0_3 : ∀ i : grid0.Coords, EltTy.bits .f32 = 32 ∨ (Rect.block (s := S3x64) S3x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x3.size a ≤ S4x3.size a
  hwx0_4 : ∀ i : grid0.Coords, EltTy.bits .f32 = 32 ∨ (Rect.block (s := S4x3) S4x3.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x4_S4x3_S5000x3_1_0_0_1_n_n : DotDims S5000x4 S4x3 S5000x3 where
  lhsContracting := [1]
  rhsContracting := [0]
  lhsNonContracting := [0]
  rhsNonContracting := [1]
  lhsBatch := []
  rhsBatch := []
  wf := dot_S5000x4_S4x3_S5000x3_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v42) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S5000x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S3x64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S3x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S4x3.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v43) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000x4 : Shape := ⟨2, ![100000, 4]⟩
abbrev S3x64x64 : Shape := ⟨3, ![3, 64, 64]⟩
abbrev S3x64 : Shape := ⟨2, ![3, 64]⟩
abbrev S4x3 : Shape := ⟨2, ![4, 3]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x3 : Shape := ⟨2, ![100000, 3]⟩
abbrev S100000x1 : Shape := ⟨2, ![100000, 1]⟩
abbrev S1x64x64 : Shape := ⟨3, ![1, 64, 64]⟩
abbrev S64x64 : Shape := ⟨2, ![64, 64]⟩
abbrev S1700000x64 : Shape := ⟨2, ![1700000, 64]⟩
abbrev S1x64 : Shape := ⟨2, ![1, 64]⟩
abbrev S64 : Shape := ⟨1, ![64]⟩

abbrev nBuf : Space → Nat
  | .hbm => 159
  | .vmem => 0
  | .smem => 0
  | _ => 0

abbrev hbmTy0_0 (i : Nat) : BufTy := match i % 128 with
  | 0 => ⟨S100000x64, .f32⟩
  | 1 => ⟨S2x1600000, .i32⟩
  | 2 => ⟨S100000x4, .f32⟩
  | 3 => ⟨S3x64x64, .f32⟩
  | 4 => ⟨S3x64, .f32⟩
  | 5 => ⟨S4x3, .f32⟩
  | 6 => ⟨S100000, .i32⟩
  | 7 => ⟨S1x1600000, .i32⟩
  | 8 => ⟨S1600000, .i32⟩
  | 9 => ⟨S1700000, .i32⟩
  | 10 => ⟨S1x1600000, .i32⟩
  | 11 => ⟨S1600000, .i32⟩
  | 12 => ⟨S1700000, .i32⟩
  | 13 => ⟨S_, .f32⟩
  | 14 => ⟨S1700000, .f32⟩
  | 15 => ⟨S_, .f32⟩
  | 16 => ⟨S100000, .f32⟩
  | 17 => ⟨S1700000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S1700000, .i32⟩
  | 29 => ⟨S1700000, .i1⟩
  | 30 => ⟨S_, .i32⟩
  | 31 => ⟨S1700000, .i32⟩
  | 32 => ⟨S1700000, .i32⟩
  | 33 => ⟨S1700000, .i32⟩
  | 34 => ⟨S1700000x1, .i32⟩
  | 35 => ⟨S1700000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S1700000, .f32⟩
  | 46 => ⟨S100000x3, .f32⟩
  | 47 => ⟨S_, .f32⟩
  | 48 => ⟨S100000x3, .f32⟩
  | 49 => ⟨S100000x3, .f32⟩
  | 50 => ⟨S_, .f32⟩
  | 51 => ⟨S100000, .f32⟩
  | 52 => ⟨S_, .f32⟩
  | 53 => ⟨S100000, .f32⟩
  | 54 => ⟨S100000, .f32⟩
  | 55 => ⟨S100000x1, .f32⟩
  | 56 => ⟨S100000x3, .f32⟩
  | 57 => ⟨S100000x3, .f32⟩
  | 58 => ⟨S100000x3, .f32⟩
  | 59 => ⟨S_, .f32⟩
  | 60 => ⟨S100000, .f32⟩
  | 61 => ⟨S100000x1, .f32⟩
  | 62 => ⟨S100000x3, .f32⟩
  | 63 => ⟨S100000x3, .f32⟩
  | 64 => ⟨S_, .f32⟩
  | 65 => ⟨S100000x64, .f32⟩
  | 66 => ⟨S1x64x64, .f32⟩
  | 67 => ⟨S64x64, .f32⟩
  | 68 => ⟨S100000x64, .f32⟩
  | 69 => ⟨S_, .i32⟩
  | 70 => ⟨S1700000, .i32⟩
  | 71 => ⟨S1700000, .i1⟩
  | 72 => ⟨S_, .i32⟩
  | 73 => ⟨S1700000, .i32⟩
  | 74 => ⟨S1700000, .i32⟩
  | 75 => ⟨S1700000, .i32⟩
  | 76 => ⟨S1700000x1, .i32⟩
  | 77 => ⟨S1700000x64, .f32⟩
  | 78 => ⟨S1700000x1, .f32⟩
  | 79 => ⟨S1700000x64, .f32⟩
  | 80 => ⟨S1700000x64, .f32⟩
  | 81 => ⟨S_, .f32⟩
  | 82 => ⟨S100000x64, .f32⟩
  | 83 => ⟨S1700000x1, .i32⟩
  | 84 => ⟨S100000x64, .f32⟩
  | 85 => ⟨S1x64, .f32⟩
  | 86 => ⟨S64, .f32⟩
  | 87 => ⟨S1x64, .f32⟩
  | 88 => ⟨S100000x64, .f32⟩
  | 89 => ⟨S100000x64, .f32⟩
  | 90 => ⟨S100000x1, .f32⟩
  | 91 => ⟨S_, .f32⟩
  | 92 => ⟨S100000x64, .f32⟩
  | 93 => ⟨S100000x64, .f32⟩
  | 94 => ⟨S100000x64, .f32⟩
  | 95 => ⟨S100000x64, .f32⟩
  | 96 => ⟨S100000x64, .f32⟩
  | 97 => ⟨S1x64x64, .f32⟩
  | 98 => ⟨S64x64, .f32⟩
  | 99 => ⟨S100000x64, .f32⟩
  | 100 => ⟨S_, .i32⟩
  | 101 => ⟨S1700000, .i32⟩
  | 102 => ⟨S1700000, .i1⟩
  | 103 => ⟨S_, .i32⟩
  | 104 => ⟨S1700000, .i32⟩
  | 105 => ⟨S1700000, .i32⟩
  | 106 => ⟨S1700000, .i32⟩
  | 107 => ⟨S1700000x1, .i32⟩
  | 108 => ⟨S1700000x64, .f32⟩
  | 109 => ⟨S1700000x1, .f32⟩
  | 110 => ⟨S1700000x64, .f32⟩
  | 111 => ⟨S1700000x64, .f32⟩
  | 112 => ⟨S_, .f32⟩
  | 113 => ⟨S100000x64, .f32⟩
  | 114 => ⟨S1700000x1, .i32⟩
  | 115 => ⟨S100000x64, .f32⟩
  | 116 => ⟨S1x64, .f32⟩
  | 117 => ⟨S64, .f32⟩
  | 118 => ⟨S1x64, .f32⟩
  | 119 => ⟨S100000x64, .f32⟩
  | 120 => ⟨S100000x64, .f32⟩
  | 121 => ⟨S100000x1, .f32⟩
  | 122 => ⟨S_, .f32⟩
  | 123 => ⟨S100000x64, .f32⟩
  | 124 => ⟨S100000x64, .f32⟩
  | 125 => ⟨S100000x64, .f32⟩
  | 126 => ⟨S100000x64, .f32⟩
  | 127 => ⟨S100000x64, .f32⟩
  | _ => ⟨S100000x64, .f32⟩

abbrev hbmTy0_1 (i : Nat) : BufTy := match i % 128 with
  | 0 => ⟨S1x64x64, .f32⟩
  | 1 => ⟨S64x64, .f32⟩
  | 2 => ⟨S100000x64, .f32⟩
  | 3 => ⟨S_, .i32⟩
  | 4 => ⟨S1700000, .i32⟩
  | 5 => ⟨S1700000, .i1⟩
  | 6 => ⟨S_, .i32⟩
  | 7 => ⟨S1700000, .i32⟩
  | 8 => ⟨S1700000, .i32⟩
  | 9 => ⟨S1700000, .i32⟩
  | 10 => ⟨S1700000x1, .i32⟩
  | 11 => ⟨S1700000x64, .f32⟩
  | 12 => ⟨S1700000x1, .f32⟩
  | 13 => ⟨S1700000x64, .f32⟩
  | 14 => ⟨S1700000x64, .f32⟩
  | 15 => ⟨S_, .f32⟩
  | 16 => ⟨S100000x64, .f32⟩
  | 17 => ⟨S1700000x1, .i32⟩
  | 18 => ⟨S100000x64, .f32⟩
  | 19 => ⟨S1x64, .f32⟩
  | 20 => ⟨S64, .f32⟩
  | 21 => ⟨S1x64, .f32⟩
  | 22 => ⟨S100000x64, .f32⟩
  | 23 => ⟨S100000x64, .f32⟩
  | 24 => ⟨S100000x1, .f32⟩
  | 25 => ⟨S_, .f32⟩
  | 26 => ⟨S100000x64, .f32⟩
  | 27 => ⟨S100000x64, .f32⟩
  | 28 => ⟨S100000x64, .f32⟩
  | 29 => ⟨S100000x64, .f32⟩
  | 30 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_cst_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_10 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_11 : Ref sig .tc := ⟨.hbm, 69, rfl⟩
abbrev main_v48 : Ref sig .tc := ⟨.hbm, 70, rfl⟩
abbrev main_v49 : Ref sig .tc := ⟨.hbm, 71, rfl⟩
abbrev main_c_12 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_13 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_call1_cst : Ref sig .tc := ⟨.hbm, 91, rfl⟩
abbrev main_call1_v0 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_c_14 : Ref sig .tc := ⟨.hbm, 100, rfl⟩
abbrev main_v74 : Ref sig .tc := ⟨.hbm, 101, rfl⟩
abbrev main_v75 : Ref sig .tc := ⟨.hbm, 102, rfl⟩
abbrev main_c_15 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_16 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_call2_cst : Ref sig .tc := ⟨.hbm, 122, rfl⟩
abbrev main_call2_v0 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_c_17 : Ref sig .tc := ⟨.hbm, 131, rfl⟩
abbrev main_v100 : Ref sig .tc := ⟨.hbm, 132, rfl⟩
abbrev main_v101 : Ref sig .tc := ⟨.hbm, 133, rfl⟩
abbrev main_c_18 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_cst_19 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_call3_cst : Ref sig .tc := ⟨.hbm, 153, rfl⟩
abbrev main_call3_v0 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S100000x3 : S_.BroadcastsInDim S100000x3 (![] : Fin 0 → Fin S100000x3.rank)
  reducesTo_S100000x3_S100000_d1 : S100000x3.ReducesTo [1] S100000
  h_S_ : 0 < S_.numel
  bcast_S100000_S100000x1_0 : S100000.BroadcastsInDim S100000x1 (![0] : Fin 1 → Fin S100000x1.rank)
  bcast_S100000x1_S100000x3_0_1 : S100000x1.BroadcastsInDim S100000x3 (![0, 1] : Fin 2 → Fin S100000x3.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  bcast_S1700000x1_S1700000x64_0_1 : S1700000x1.BroadcastsInDim S1700000x64 (![0, 1] : Fin 2 → Fin S1700000x64.rank)
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S100000x3_S100000x1_0_0 : S100000x3.Slices ![0, 0] S100000x1
  bcast_S100000x1_S100000x64_0_1 : S100000x1.BroadcastsInDim S100000x64 (![0, 1] : Fin 2 → Fin S100000x64.rank)
  slices_S3x64x64_S1x64x64_1_0_0 : S3x64x64.Slices ![1, 0, 0] S1x64x64
  slices_S3x64_S1x64_1_0 : S3x64.Slices ![1, 0] S1x64
  slices_S100000x3_S100000x1_0_1 : S100000x3.Slices ![0, 1] S100000x1
  slices_S3x64x64_S1x64x64_2_0_0 : S3x64x64.Slices ![2, 0, 0] S1x64x64
  slices_S3x64_S1x64_2_0 : S3x64.Slices ![2, 0] S1x64
  slices_S100000x3_S100000x1_0_2 : S100000x3.Slices ![0, 2] S100000x1
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x4_S4x3_S100000x3_1_0_0_1_n_n_wf : DotDims.WF S100000x4 S4x3 S100000x3 [1] [0] [0] [1] [] []
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x4_S4x3_S100000x3_1_0_0_1_n_n : DotDims S100000x4 S4x3 S100000x3 where
  lhsContracting := [1]
  rhsContracting := [0]
  lhsNonContracting := [0]
  rhsNonContracting := [1]
  lhsBatch := []
  rhsBatch := []
  wf := dot_S100000x4_S4x3_S100000x3_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.Spec.lean ====
/-
  The layer both programs compute, as one function of the arrays, at the exact values.

  For a node n the gate is the softmax over three experts of the logits (gate_features[n] · Wg) / 101, taken as both
  programs take it: subtract the row maximum, exponentiate, divide by the sum. Each expert e contributes
  gate[n, e] · relu(a_e[n, o] + b[e, o]), where a_e is the expert's aggregated linear map, and the three contributions
  are added to zero in order. The kernel is handed the aggregated features agg (neighbours' features scaled and
  summed per node) and applies each expert's matrix afterwards: a_e[n, o] = Σ_d agg[n, d] · W[e, d, o].
-/
import Idealize.ShloMosaic.PureOps.Ideal
import Idealize.ShloMosaic.Lib.ValueIdx

noncomputable section

namespace Cert.Spec

open Idealize.ShloMosaic Idealize.ShloMosaic.ValueIdx

/-- The logit of expert j: the dot product of a node's four gate features with column j of the gate matrix, divided by
    the temperature 101 (the float 0x42CA0000). -/
def logit (gf : Fin 4 → EReal) (wg : Fin 4 → Fin 3 → EReal) (j : Fin 3) : EReal :=
  Ideal.div (∑ k : Fin 4, gf k * wg k j) (Ideal.ofBits .f32 0x42CA0000#32)

/-- The row maximum a softmax subtracts: the maximum of the three logits, folded from −∞ (the float 0xFF800000), and
    once more the maximum with −∞. -/
def rowMax (L : Fin 3 → EReal) : EReal :=
  max (Ideal.ofBits .f32 0xFF800000#32) ((Finset.univ : Finset (Fin 3)).fold max (Ideal.ofBits .f32 0xFF800000#32) L)

/-- The softmax weight of expert j. -/
def gate (L : Fin 3 → EReal) (j : Fin 3) : EReal :=
  Ideal.div (Ideal.exp (L j - rowMax L)) (∑ k : Fin 3, Ideal.exp (L k - rowMax L))

/-- The gate-weighted sum of the three experts' rectified outputs, accumulated from zero in expert order. -/
def combine (g a bias : Fin 3 → EReal) : EReal :=
  ((0 + g 0 * max (a 0 + bias 0) 0) + g 1 * max (a 1 + bias 1) 0) + g 2 * max (a 2 + bias 2) 0

/-- The whole output array from the aggregated features: entry (n, o). -/
def G (agg : (⟨2, ![100000, 64]⟩ : Shape).Idx → EReal) (gf : (⟨2, ![100000, 4]⟩ : Shape).Idx → EReal)
    (W : (⟨3, ![3, 64, 64]⟩ : Shape).Idx → EReal) (b : (⟨2, ![3, 64]⟩ : Shape).Idx → EReal)
    (wg : (⟨2, ![4, 3]⟩ : Shape).Idx → EReal) : (⟨2, ![100000, 64]⟩ : Shape).Idx → EReal :=
  fun i => combine (gate (logit (fun k => gf (ix2 (i 0) k)) (fun k j => wg (ix2 k j))))
    (fun e => ∑ d : Fin 64, agg (ix2 (i 0) d) * W (ix3 e d (i 1))) (fun e => b (ix2 e (i 1)))

end Cert.Spec

end
-- ==== Proof.KernelPayload.lean ====
/-
  The kernel body's output block, entry by entry, at the exact values.

  The body computes, for a block of 5000 nodes, the softmax gate over three experts from the logits
  (gate features · gate matrix) / 101 — row maximum subtracted, exponentials over their row sum — and adds, from zero
  and in expert order, gate[p, e] · max(Σ_d agg[p, d] · W[e, d, q] + b[e, q], 0). This module reads that block at one
  entry (p, q): each product into a zero accumulator is the plain sum over its contracted axis, each row reduction the
  fold or sum over the three columns, each re-laying (a per-row vector set as a column and spread, a column cut out and
  spread, a bias row spread over the rows, a weight block with its unit axis dropped) reads one entry of its operand,
  and a load through a rectangle of the weight or bias array reads that array at the expert's index. Assembled, the
  entry is the layer's formula `Cert.Spec.combine` of `Cert.Spec.gate` of `Cert.Spec.logit`.
-/
import proofs.«171982_j7086696038965_1_alg».proof.Proof.Gen.KernelIdeal.Frame
import proofs.«171982_j7086696038965_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-! ## The two contractions

Each product into a zero accumulator, read at one entry, is the plain sum over its one contracted axis; the four
coordinate facts say which operand entries the contraction index names. -/

theorem lhsA_0 (i : S5000x3.Idx) (q : dot_S5000x4_S4x3_S5000x3_1_0_0_1_n_n.contr.Idx) :
    (dot_S5000x4_S4x3_S5000x3_1_0_0_1_n_n.lhsIdx i q 0).val = (i 0).val := by
  unfold DotDims.lhsIdx
  rw [dif_neg (show ¬(0 : Fin S5000x4.rank) ∈ dot_S5000x4_S4x3_S5000x3_1_0_0_1_n_n.lhsBatch by decide),
    dif_pos (show (0 : Fin S5000x4.rank) ∈ dot_S5000x4_S4x3_S5000x3_1_0_0_1_n_n.lhsNonContracting by decide)]
  rfl
theorem lhsA_1 (i : S5000x3.Idx) (q : dot_S5000x4_S4x3_S5000x3_1_0_0_1_n_n.contr.Idx) :
    (dot_S5000x4_S4x3_S5000x3_1_0_0_1_n_n.lhsIdx i q 1).val = (q ⟨0, by decide⟩).val :=
  dot_S5000x4_S4x3_S5000x3_1_0_0_1_n_n.lhsIdx_val_of_single rfl i q
theorem rhsA_0 (i : S5000x3.Idx) (q : dot_S5000x4_S4x3_S5000x3_1_0_0_1_n_n.contr.Idx) :
    (dot_S5000x4_S4x3_S5000x3_1_0_0_1_n_n.rhsIdx i q 0).val = (q ⟨0, by decide⟩).val :=
  dot_S5000x4_S4x3_S5000x3_1_0_0_1_n_n.rhsIdx_val_of_single rfl i q
theorem rhsA_1 (i : S5000x3.Idx) (q : dot_S5000x4_S4x3_S5000x3_1_0_0_1_n_n.contr.Idx) :
    (dot_S5000x4_S4x3_S5000x3_1_0_0_1_n_n.rhsIdx i q 1).val = (i 1).val := by
  unfold DotDims.rhsIdx
  rw [dif_neg (show ¬(1 : Fin S4x3.rank) ∈ dot_S5000x4_S4x3_S5000x3_1_0_0_1_n_n.rhsBatch by decide),
    dif_pos (show (1 : Fin S4x3.rank) ∈ dot_S5000x4_S4x3_S5000x3_1_0_0_1_n_n.rhsNonContracting by decide)]
  rfl

/-- The gate's product at (p, j): the sum over the four gate features. -/
theorem mmA_apply (a : FVec Ideal S5000x4 .bf16) (w : FVec Ideal S4x3 .bf16) (p : Fin 5000) (j : Fin 3) :
    matmul (F := Ideal) dot_S5000x4_S4x3_S5000x3_1_0_0_1_n_n none a w (constant S5000x3 .f32 0x00000000#32) (ix2 p j)
      = ∑ k : Fin 4, a (ix2 p k) * w (ix2 k j) := by
  simp only [matmul]
  rw [Ideal.matmul_constant_zero_apply,
    ← Equiv.sum_comp (contrEquiv1 dot_S5000x4_S4x3_S5000x3_1_0_0_1_n_n 4 rfl rfl).symm]
  refine Finset.sum_congr rfl fun k _ => ?_
  have hk := contrEquiv1_symm_val dot_S5000x4_S4x3_S5000x3_1_0_0_1_n_n 4 rfl rfl k
  have el : dot_S5000x4_S4x3_S5000x3_1_0_0_1_n_n.lhsIdx (ix2 p j)
      ((contrEquiv1 dot_S5000x4_S4x3_S5000x3_1_0_0_1_n_n 4 rfl rfl).symm k) = ix2 p k :=
    funext fun a => Fin.ext (by
      match a with
      | ⟨0, _⟩ => exact lhsA_0 _ _
      | ⟨1, _⟩ => exact (lhsA_1 _ _).trans hk)
  have er : dot_S5000x4_S4x3_S5000x3_1_0_0_1_n_n.rhsIdx (ix2 p j)
      ((contrEquiv1 dot_S5000x4_S4x3_S5000x3_1_0_0_1_n_n 4 rfl rfl).symm k) = ix2 k j :=
    funext fun a => Fin.ext (by
      match a with
      | ⟨0, _⟩ => exact (rhsA_0 _ _).trans hk
      | ⟨1, _⟩ => exact rhsA_1 _ _)
  rw [el, er]

theorem lhsB_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
theorem lhsB_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhsB_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhsB_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- An expert's product at (p, q): the sum over the sixty-four aggregated features. -/
theorem mmB_apply (a : FVec Ideal S5000x64 .bf16) (w : FVec Ideal S64x64 .bf16) (p : Fin 5000) (j : Fin 64) :
    matmul (F := Ideal) dot_S5000x64_S64x64_S5000x64_1_0_0_1_n_n none a w (constant S5000x64 .f32 0x00000000#32) (ix2 p j)
      = ∑ k : Fin 64, a (ix2 p k) * w (ix2 k j) := by
  simp only [matmul]
  rw [Ideal.matmul_constant_zero_apply,
    ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p j)
      ((contrEquiv1 dot_S5000x64_S64x64_S5000x64_1_0_0_1_n_n 64 rfl rfl).symm k) = ix2 p k :=
    funext fun a => Fin.ext (by
      match a with
      | ⟨0, _⟩ => exact lhsB_0 _ _
      | ⟨1, _⟩ => exact (lhsB_1 _ _).trans hk)
  have er : dot_S5000x64_S64x64_S5000x64_1_0_0_1_n_n.rhsIdx (ix2 p j)
      ((contrEquiv1 dot_S5000x64_S64x64_S5000x64_1_0_0_1_n_n 64 rfl rfl).symm k) = ix2 k j :=
    funext fun a => Fin.ext (by
      match a with
      | ⟨0, _⟩ => exact (rhsB_0 _ _).trans hk
      | ⟨1, _⟩ => exact rhsB_1 _ _)
  rw [el, er]
/-! ## Row reductions -/

/-- The row maximum at row p: the fold of max from the accumulator's value over the three columns. -/
theorem rowMax_apply (v : FVec Ideal S5000x3 .f32) (p : Fin 5000) :
    multiReduction (F := Ideal) .maximumf [1] S5000 v 0xFF800000#32 reduces_S5000x3_S5000 (.inl rfl) rfl (ix1 p)
      = (Finset.univ : Finset (Fin 3)).fold max (Ideal.ofBits .f32 0xFF800000#32) (fun j => v (ix2 p j)) := by
  refine (Ideal.multiReduction_maximumf_single v 0xFF800000#32 reduces_S5000x3_S5000 (.inl rfl) rfl (ix1 p)).trans ?_
  have e : v ∘ reduces_S5000x3_S5000.lift (ix1 p) = fun j : Fin 3 => v (ix2 p j) := by
    funext k
    show v _ = v _
    congr 1
    funext a
    match a with
    | ⟨0, _⟩ => rfl
    | ⟨1, _⟩ => rfl
  rw [e]
  rfl

/-- The row sum at row p: the sum over the three columns. -/
theorem rowSum_apply (v : FVec Ideal S5000x3 .f32) (p : Fin 5000) :
    multiReduction (F := Ideal) .add [1] S5000 v 0x00000000#32 reduces_S5000x3_S5000 (.inl rfl) rfl (ix1 p)
      = ∑ j : Fin 3, v (ix2 p j) := by
  refine (Ideal.multiReduction_add_single v 0x00000000#32 reduces_S5000x3_S5000 (.inl rfl) rfl (ix1 p)).trans ?_
  refine Finset.sum_congr rfl fun k _ => ?_
  congr 1
  funext a
  match a with
  | ⟨0, _⟩ => rfl
  | ⟨1, _⟩ => rfl

/-! ## Re-laying -/

/-- A per-row vector laid as a column and spread over three columns reads the row's entry. -/
theorem col3_apply (v : FVec Ideal S5000 .f32) (p : Fin 5000) (j : Fin 3) :
    broadcastTo S5000x3 (shapeCast S5000x1 v shapeCasts_S5000_S5000x1) broadcasts_S5000x1_S5000x3 (ix2 p j) = v (ix1 p) := by
  refine (broadcastTo_apply _ _ (ix2 p j) (ix2 p (0 : Fin 1)) fun a => ?_).trans ?_
  · match a with
    | ⟨0, _⟩ => show p.val = if (5000 : Nat) = 1 then 0 else p.val; rw [if_neg (by decide)]
    | ⟨1, _⟩ => rfl
  · refine shapeCast_apply _ _ _ _ ?_
    rw [Shape.rowMajor_val_one, Shape.rowMajor_val_two]
    show p.val = p.val * 1 + 0
    omega

/-- A one-column slice spread over the sixty-four output columns reads the row's entry of that column. -/
theorem col64_apply (g : FVec Ideal S5000x1 .f32) (p : Fin 5000) (q : Fin 64) :
    broadcastTo S5000x64 g broadcasts_S5000x1_S5000x64 (ix2 p q) = g (ix2 p (0 : Fin 1)) := by
  refine broadcastTo_apply _ _ (ix2 p q) (ix2 p (0 : Fin 1)) fun a => ?_
  match a with
  | ⟨0, _⟩ => show p.val = if (5000 : Nat) = 1 then 0 else p.val; rw [if_neg (by decide)]
  | ⟨1, _⟩ => rfl

/-- The bias row, flattened and laid back as a row, spread over the rows: reads the row at column q. -/
theorem biasRow_apply (b : Vec Ideal S1x64 .f32) (p : Fin 5000) (q : Fin 64) :
    broadcastTo S5000x64 (shapeCast S1x64 (shapeCast S64 b shapeCasts_S1x64_S64) shapeCasts_S64_S1x64) broadcasts_S1x64_S5000x64 (ix2 p q)
      = b (ix2 (0 : Fin 1) q) := by
  rw [shapeCast_shapeCast]
  exact broadcastTo_1b_ab_apply b _ p q

/-- The expert's weight block with its unit axis dropped reads the block at (0, d, q). -/
theorem wBlock_apply (w : Vec Ideal S1x64x64 .f32) (d q : Fin 64) :
    shapeCast S64x64 w shapeCasts_S1x64x64_S64x64 (ix2 d q) = w (ix3 (0 : Fin 1) d q) :=
  shapeCast_1ab_ab_apply w _ d q

/-! ## Loads through the rectangles -/

theorem hz2 : (![0, 0] : Fin 2 → Nat) = fun _ => 0 :=
  funext fun a => match a with | ⟨0, _⟩ => rfl | ⟨1, _⟩ => rfl

/-- The load of expert 0's weight block reads the weight array at (0, d, q). -/
theorem ldW0 (x2 : Vec Ideal S3x64x64 .f32) (d q : Fin 64) :
    View.ld x2 r0_3 (ix3 (0 : Fin 1) d q) = x2 (ix3 (0 : Fin 3) d q) :=
  congrArg x2 (funext fun a => Fin.ext (by
    match a with
    | ⟨0, _⟩ => rfl
    | ⟨1, _⟩ => show 0 + 1 * d.val = d.val; omega
    | ⟨2, _⟩ => show 0 + 1 * q.val = q.val; omega))
/-- The load of expert 1's weight block reads the weight array at (1, d, q). -/
theorem ldW1 (x2 : Vec Ideal S3x64x64 .f32) (d q : Fin 64) :
    View.ld x2 r0_5 (ix3 (0 : Fin 1) d q) = x2 (ix3 (1 : Fin 3) d q) :=
  congrArg x2 (funext fun a => Fin.ext (by
    match a with
    | ⟨0, _⟩ => rfl
    | ⟨1, _⟩ => show 0 + 1 * d.val = d.val; omega
    | ⟨2, _⟩ => show 0 + 1 * q.val = q.val; omega))
/-- The load of expert 2's weight block reads the weight array at (2, d, q). -/
theorem ldW2 (x2 : Vec Ideal S3x64x64 .f32) (d q : Fin 64) :
    View.ld x2 r0_7 (ix3 (0 : Fin 1) d q) = x2 (ix3 (2 : Fin 3) d q) :=
  congrArg x2 (funext fun a => Fin.ext (by
    match a with
    | ⟨0, _⟩ => rfl
    | ⟨1, _⟩ => show 0 + 1 * d.val = d.val; omega
    | ⟨2, _⟩ => show 0 + 1 * q.val = q.val; omega))
/-- The load of expert 0's bias row reads the bias array at (0, q). -/
theorem ldB0 (x3 : Vec Ideal S3x64 .f32) (q : Fin 64) :
    View.ld x3 r0_4 (ix2 (0 : Fin 1) q) = x3 (ix2 (0 : Fin 3) q) :=
  congrArg x3 (funext fun a => Fin.ext (by
    match a with
    | ⟨0, _⟩ => rfl
    | ⟨1, _⟩ => show 0 + 1 * q.val = q.val; omega))
/-- The load of expert 1's bias row reads the bias array at (1, q). -/
theorem ldB1 (x3 : Vec Ideal S3x64 .f32) (q : Fin 64) :
    View.ld x3 r0_6 (ix2 (0 : Fin 1) q) = x3 (ix2 (1 : Fin 3) q) :=
  congrArg x3 (funext fun a => Fin.ext (by
    match a with
    | ⟨0, _⟩ => rfl
    | ⟨1, _⟩ => show 0 + 1 * q.val = q.val; omega))
/-- The load of expert 2's bias row reads the bias array at (2, q). -/
theorem ldB2 (x3 : Vec Ideal S3x64 .f32) (q : Fin 64) :
    View.ld x3 r0_8 (ix2 (0 : Fin 1) q) = x3 (ix2 (2 : Fin 3) q) :=
  congrArg x3 (funext fun a => Fin.ext (by
    match a with
    | ⟨0, _⟩ => rfl
    | ⟨1, _⟩ => show 0 + 1 * q.val = q.val; omega))

/-! ## The gate -/

/-- The logits block: the gate features times the gate matrix, over the temperature. -/
def lgt (v2 : Vec Ideal S5000x4 .f32) (v3 : Vec Ideal S4x3 .f32) : FVec Ideal S5000x3 .f32 :=
  divf (matmul dot_S5000x4_S4x3_S5000x3_1_0_0_1_n_n none (truncf .bf16 v2 bitsLt_bf16_f32) (truncf .bf16 v3 bitsLt_bf16_f32)
      (constant (F := Ideal) S5000x3 .f32 0x00000000#32))
    (broadcast S5000x3 (Scalar.ofBits (F := Ideal) .f32 0x42CA0000#32))

/-- Its entry (p, j) is the logit of expert j from row p of the gate features. -/
theorem lgt_apply (v2 : Vec Ideal S5000x4 .f32) (v3 : Vec Ideal S4x3 .f32) (p : Fin 5000) (j : Fin 3) :
    lgt v2 v3 (ix2 p j) = Cert.Spec.logit (fun k => v2 (ix2 p k)) (fun k j => v3 (ix2 k j)) j := by
  unfold lgt Cert.Spec.logit
  show Ideal.div (matmul dot_S5000x4_S4x3_S5000x3_1_0_0_1_n_n none (truncf .bf16 v2 bitsLt_bf16_f32) (truncf .bf16 v3 bitsLt_bf16_f32)
      (constant (F := Ideal) S5000x3 .f32 0x00000000#32) (ix2 p j)) (Ideal.ofBits .f32 0x42CA0000#32) = _
  rw [mmA_apply]
  rfl

/-- The per-row maximum a softmax subtracts, as the body takes it: the row maximum, and once more the maximum with −∞. -/
def rmax (v8 : FVec Ideal S5000x3 .f32) : FVec Ideal S5000 .f32 :=
  maximumf (broadcast S5000 (Scalar.ofBits (F := Ideal) .f32 0xFF800000#32))
    (multiReduction .maximumf [1] S5000 v8 0xFF800000#32 reduces_S5000x3_S5000 (.inl rfl) rfl)

theorem rmax_apply (v8 : FVec Ideal S5000x3 .f32) (p : Fin 5000) :
    rmax v8 (ix1 p) = Cert.Spec.rowMax (fun j => v8 (ix2 p j)) := by
  unfold rmax Cert.Spec.rowMax
  show max (Ideal.ofBits .f32 0xFF800000#32)
    (multiReduction (F := Ideal) .maximumf [1] S5000 v8 0xFF800000#32 reduces_S5000x3_S5000 (.inl rfl) rfl (ix1 p)) = _
  rw [rowMax_apply]

/-- The exponentials of the logits less their row maximum. -/
def exs (v8 : FVec Ideal S5000x3 .f32) : FVec Ideal S5000x3 .f32 :=
  exp (subf v8 (broadcastTo S5000x3 (shapeCast S5000x1 (rmax v8) shapeCasts_S5000_S5000x1) broadcasts_S5000x1_S5000x3))

theorem exs_apply (v8 : FVec Ideal S5000x3 .f32) (p : Fin 5000) (j : Fin 3) :
    exs v8 (ix2 p j) = Ideal.exp (v8 (ix2 p j) - Cert.Spec.rowMax (fun j => v8 (ix2 p j))) := by
  unfold exs
  show Ideal.exp (v8 (ix2 p j)
    - broadcastTo S5000x3 (shapeCast S5000x1 (rmax v8) shapeCasts_S5000_S5000x1) broadcasts_S5000x1_S5000x3 (ix2 p j)) = _
  rw [col3_apply, rmax_apply]

/-- The softmax of a logits block along its rows: each exponential over its row's sum. -/
def smx (v8 : FVec Ideal S5000x3 .f32) : FVec Ideal S5000x3 .f32 :=
  divf (exs v8) (broadcastTo S5000x3 (shapeCast S5000x1
    (multiReduction .add [1] S5000 (exs v8) 0x00000000#32 reduces_S5000x3_S5000 (.inl rfl) rfl) shapeCasts_S5000_S5000x1)
    broadcasts_S5000x1_S5000x3)

theorem smx_apply (v8 : FVec Ideal S5000x3 .f32) (p : Fin 5000) (j : Fin 3) :
    smx v8 (ix2 p j) = Cert.Spec.gate (fun j => v8 (ix2 p j)) j := by
  unfold smx Cert.Spec.gate
  show Ideal.div (exs v8 (ix2 p j)) (broadcastTo S5000x3 (shapeCast S5000x1
    (multiReduction (F := Ideal) .add [1] S5000 (exs v8) 0x00000000#32 reduces_S5000x3_S5000 (.inl rfl) rfl) shapeCasts_S5000_S5000x1)
    broadcasts_S5000x1_S5000x3 (ix2 p j)) = _
  rw [col3_apply, rowSum_apply, exs_apply]
  exact congrArg (Ideal.div _) (Finset.sum_congr rfl fun k _ => exs_apply v8 p k)

/-- The body's gate block is the softmax of the logits block. -/
theorem pay2_eq (v2 : Vec Ideal S5000x4 .f32) (v3 : Vec Ideal S4x3 .f32) : k0_pay2 (F := Ideal) v2 v3 = smx (lgt v2 v3) := rfl

/-- The gate block at (p, j): the softmax weight of expert j for row p. -/
theorem pay2_apply (v2 : Vec Ideal S5000x4 .f32) (v3 : Vec Ideal S4x3 .f32) (p : Fin 5000) (j : Fin 3) :
    k0_pay2 (F := Ideal) v2 v3 (ix2 p j)
      = Cert.Spec.gate (Cert.Spec.logit (fun k => v2 (ix2 p k)) (fun k j => v3 (ix2 k j))) j := by
  rw [pay2_eq, smx_apply]
  exact congrArg (fun L => Cert.Spec.gate L j) (funext fun k => lgt_apply v2 v3 p k)

/-- The gate block's column e, cut out as a one-column block, reads the gate block at (p, e). -/
theorem gcol0 (g : FVec Ideal S5000x3 .f32) (p : Fin 5000) :
    extractStridedSlice S5000x1 ![0, 0] g slices_S5000x3_o0_0_S5000x1 (ix2 p (0 : Fin 1)) = g (ix2 p (0 : Fin 3)) :=
  slice2_axis1_apply 0 g _ p 0 0 rfl
theorem gcol1 (g : FVec Ideal S5000x3 .f32) (p : Fin 5000) :
    extractStridedSlice S5000x1 ![0, 1] g slices_S5000x3_o0_1_S5000x1 (ix2 p (0 : Fin 1)) = g (ix2 p (1 : Fin 3)) :=
  slice2_axis1_apply 1 g _ p 0 1 rfl
theorem gcol2 (g : FVec Ideal S5000x3 .f32) (p : Fin 5000) :
    extractStridedSlice S5000x1 ![0, 2] g slices_S5000x3_o0_2_S5000x1 (ix2 p (0 : Fin 1)) = g (ix2 p (2 : Fin 3)) :=
  slice2_axis1_apply 2 g _ p 0 2 rfl

/-! ## One expert's contribution -/

/-- The aggregated-feature block as the products read it: the block itself. -/
theorem pay3_apply (v0 : Vec Ideal S5000x64 .f32) (p : Fin 5000) (d : Fin 64) : k0_pay3 (F := Ideal) v0 (ix2 p d) = v0 (ix2 p d) := by
  unfold k0_pay3
  show shapeCast S5000x64 v0 shapeCasts_S5000x64_S5000x64 (ix2 p d) = _
  rw [shapeCast_self]

/-- An expert's product at (p, q) against its weight block with the unit axis dropped. -/
theorem mmW_apply (a : FVec Ideal S5000x64 .bf16) (w : Vec Ideal S1x64x64 .f32) (p : Fin 5000) (q : Fin 64) :
    matmul (F := Ideal) dot_S5000x64_S64x64_S5000x64_1_0_0_1_n_n none a
        (truncf .bf16 (shapeCast S64x64 w shapeCasts_S1x64x64_S64x64) bitsLt_bf16_f32) (constant S5000x64 .f32 0x00000000#32) (ix2 p q)
      = ∑ d : Fin 64, a (ix2 p d) * w (ix3 (0 : Fin 1) d q) := by
  rw [mmB_apply]
  exact Finset.sum_congr rfl fun d _ => congrArg (a (ix2 p d) * ·) (wBlock_apply w d q)

/-- One expert's term: its gate column spread over the output columns, times the rectified affine map of the block. -/
def expertTerm (g : FVec Ideal S5000x1 .f32) (a : FVec Ideal S5000x64 .bf16) (w : Vec Ideal S1x64x64 .f32) (b : Vec Ideal S1x64 .f32) :
    FVec Ideal S5000x64 .f32 :=
  mulf (broadcastTo S5000x64 g broadcasts_S5000x1_S5000x64)
    (maximumf
      (addf (matmul dot_S5000x64_S64x64_S5000x64_1_0_0_1_n_n none a
          (truncf .bf16 (shapeCast S64x64 w shapeCasts_S1x64x64_S64x64) bitsLt_bf16_f32) (constant (F := Ideal) S5000x64 .f32 0x00000000#32))
        (broadcastTo S5000x64 (shapeCast S1x64 (shapeCast S64 b shapeCasts_S1x64_S64) shapeCasts_S64_S1x64) broadcasts_S1x64_S5000x64))
      (broadcast S5000x64 (Scalar.ofBits (F := Ideal) .f32 0x00000000#32)))

theorem expertTerm_apply (g : FVec Ideal S5000x1 .f32) (a : FVec Ideal S5000x64 .bf16) (w : Vec Ideal S1x64x64 .f32) (b : Vec Ideal S1x64 .f32)
    (p : Fin 5000) (q : Fin 64) :
    expertTerm g a w b (ix2 p q)
      = g (ix2 p (0 : Fin 1)) * max ((∑ d : Fin 64, a (ix2 p d) * w (ix3 (0 : Fin 1) d q)) + b (ix2 (0 : Fin 1) q)) 0 := by
  unfold expertTerm
  show broadcastTo S5000x64 g broadcasts_S5000x1_S5000x64 (ix2 p q)
    * max (matmul (F := Ideal) dot_S5000x64_S64x64_S5000x64_1_0_0_1_n_n none a
          (truncf .bf16 (shapeCast S64x64 w shapeCasts_S1x64x64_S64x64) bitsLt_bf16_f32) (constant S5000x64 .f32 0x00000000#32) (ix2 p q)
        + broadcastTo S5000x64 (shapeCast S1x64 (shapeCast S64 b shapeCasts_S1x64_S64) shapeCasts_S64_S1x64) broadcasts_S1x64_S5000x64 (ix2 p q))
      (Ideal.ofBits .f32 0x00000000#32) = _
  rw [col64_apply, mmW_apply, biasRow_apply, Ideal.ofBits_zero_f32]

/-- The same with each factor named: the gate weight G, the weight column A and the bias entry B the loads read. -/
theorem expert_at (g : FVec Ideal S5000x1 .f32) (x0 : Vec Ideal S5000x64 .f32) (w : Vec Ideal S1x64x64 .f32) (b : Vec Ideal S1x64 .f32)
    (p : Fin 5000) (q : Fin 64) (G : EReal) (A : Fin 64 → EReal) (B : EReal)
    (hg : g (ix2 p (0 : Fin 1)) = G) (hw : ∀ d, w (ix3 (0 : Fin 1) d q) = A d) (hb : b (ix2 (0 : Fin 1) q) = B) :
    expertTerm g (k0_pay3 x0) w b (ix2 p q) = G * max ((∑ d : Fin 64, x0 (ix2 p d) * A d) + B) 0 := by
  have hs : (∑ d : Fin 64, k0_pay3 (F := Ideal) x0 (ix2 p d) * w (ix3 (0 : Fin 1) d q)) = ∑ d : Fin 64, x0 (ix2 p d) * A d :=
    Finset.sum_congr rfl fun d _ => by rw [pay3_apply, hw]
  rw [expertTerm_apply, hg, hb, hs]

/-! ## The output block -/

/-- The body's result: experts 1 and 2 added to what expert 0 left. -/
theorem pay1_eq (v19 : FVec Ideal S5000x3 .f32) (v20 : FVec Ideal S5000x64 .bf16) (v36 : FVec Ideal S5000x64 .f32)
    (v37 : Vec Ideal S1x64x64 .f32) (v41 : Vec Ideal S1x64 .f32) (v52 : Vec Ideal S1x64x64 .f32) (v56 : Vec Ideal S1x64 .f32) :
    k0_pay1 (F := Ideal) v19 v20 v36 v37 v41 v52 v56
      = addf (addf v36 (expertTerm (extractStridedSlice S5000x1 ![0, 1] v19 slices_S5000x3_o0_1_S5000x1) v20 v37 v41))
          (expertTerm (extractStridedSlice S5000x1 ![0, 2] v19 slices_S5000x3_o0_2_S5000x1) v20 v52 v56) := rfl

/-- What expert 0 left: its term added to the zero block. -/
theorem pay4_eq (v0 : Vec Ideal S5000x64 .f32) (v2 : Vec Ideal S5000x4 .f32) (v3 : Vec Ideal S4x3 .f32)
    (v22 : Vec Ideal S1x64x64 .f32) (v26 : Vec Ideal S1x64 .f32) :
    k0_pay4 (F := Ideal) v0 v2 v3 v22 v26
      = addf (broadcast S5000x64 (Scalar.ofBits (F := Ideal) .f32 0x00000000#32))
          (expertTerm (extractStridedSlice S5000x1 ![0, 0] (k0_pay2 v2 v3) slices_S5000x3_o0_0_S5000x1) (k0_pay3 v0) v22 v26) := rfl

/-- What the body leaves in the output block at row p, column q, from the blocks it loads: the layer's formula with the
    aggregated-feature block's row p, the gate-feature block's row p, and the whole weight arrays. -/
theorem out_apply (x0 : Vec Ideal S5000x64 .f32) (x1 : Vec Ideal S5000x4 .f32) (x2 : Vec Ideal S3x64x64 .f32)
    (x3 : Vec Ideal S3x64 .f32) (x4 : Vec Ideal S4x3 .f32) (p : Fin 5000) (q : Fin 64) :
    out0_5 (F := Ideal) x0 x1 x2 x3 x4 (ix2 p q)
      = Cert.Spec.combine (Cert.Spec.gate (Cert.Spec.logit (fun k => x1 (ix2 p k)) (fun k j => x4 (ix2 k j))))
          (fun e => ∑ d : Fin 64, x0 (ix2 p d) * x2 (ix3 e d q)) (fun e => x3 (ix2 e q)) := by
  unfold out0_5
  rw [View.canon_unit_zero hz2]
  simp only [View.ld_unit_zero (S := S5000x64) hz2, View.ld_unit_zero (S := S5000x4) hz2, View.ld_unit_zero (S := S4x3) hz2]
  rw [pay1_eq, pay4_eq]
  show ((Ideal.ofBits .f32 0x00000000#32
        + expertTerm (extractStridedSlice S5000x1 ![0, 0] (k0_pay2 x1 x4) slices_S5000x3_o0_0_S5000x1) (k0_pay3 x0)
            (View.ld x2 r0_3) (View.ld x3 r0_4) (ix2 p q))
      + expertTerm (extractStridedSlice S5000x1 ![0, 1] (k0_pay2 x1 x4) slices_S5000x3_o0_1_S5000x1) (k0_pay3 x0)
            (View.ld x2 r0_5) (View.ld x3 r0_6) (ix2 p q))
    + expertTerm (extractStridedSlice S5000x1 ![0, 2] (k0_pay2 x1 x4) slices_S5000x3_o0_2_S5000x1) (k0_pay3 x0)
            (View.ld x2 r0_7) (View.ld x3 r0_8) (ix2 p q) = _
  rw [expert_at _ x0 _ _ p q _ _ _ ((gcol0 _ p).trans (pay2_apply x1 x4 p 0)) (fun d => ldW0 x2 d q) (ldB0 x3 q),
    expert_at _ x0 _ _ p q _ _ _ ((gcol1 _ p).trans (pay2_apply x1 x4 p 1)) (fun d => ldW1 x2 d q) (ldB1 x3 q),
    expert_at _ x0 _ _ p q _ _ _ ((gcol2 _ p).trans (pay2_apply x1 x4 p 2)) (fun d => ldW2 x2 d q) (ldB2 x3 q),
    Ideal.ofBits_zero_f32]
  rfl

end Cert.KernelIdeal.Payload

end
-- ==== Proof.KernelValue.lean ====
/-
  From the twenty row blocks to the whole output array.

  The kernel walks the 100000 nodes in twenty blocks of 5000 rows. At block t it reads rows 5000·t … 5000·t + 4999 of the
  aggregated features and of the gate features, and the three weight arrays whole, and writes rows 5000·t … 5000·t + 4999 of
  the output. Row p of what it writes is the layer's formula of row p of what it read, so the block written at t is block t of
  the layer's formula of the whole arrays; the twenty blocks tile the output, so after the run the output array is that formula.
-/
import proofs.«171982_j7086696038965_1_alg».proof.Proof.Gen.KernelIdeal.Value
import proofs.«171982_j7086696038965_1_alg».proof.Proof.KernelPayload
import proofs.«171982_j7086696038965_1_alg».proof.Proof.Spec
import Idealize.ShloMosaic.Lib.Pipeline.Value
import Idealize.ShloMosaic.Lib.ValueIdx

noncomputable section

namespace Cert.KernelIdeal.KValue

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## Where each block sits -/

/-- At block t the aggregated features, the gate features and the output are each at row block t, column block 0. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_5.index t (0 : Fin 2) = t.val ∧ win0_5.index t (1 : Fin 2) = 0 :=
  (by decide +kernel : ∀ t : Fin grid0.N, _)

/-- The three weight arrays are read whole at every block: block index 0 on every axis. -/
theorem idx_whole : ∀ t : Fin cfg0.N,
    (win0_2.index t (0 : Fin 3) = 0 ∧ win0_2.index t (1 : Fin 3) = 0 ∧ win0_2.index t (2 : Fin 3) = 0)
    ∧ (win0_3.index t (0 : Fin 2) = 0 ∧ win0_3.index t (1 : Fin 2) = 0)
    ∧ (win0_4.index t (0 : Fin 2) = 0 ∧ win0_4.index t (1 : Fin 2) = 0) :=
  (by decide +kernel : ∀ t : Fin grid0.N, _)

/-! ## Each input block as entries of its array -/

/-- Entry (p, d) of block t of an array of 100000 rows of 64, read 5000 rows at a time, is the array's entry (5000·t + p, d). -/
theorem rows_read0 (c : Dev nD) (t : Fin cfg0.N) (A : Buf (Elt Ideal) ((c : Thread nD τ).loc main_v42))
    (x : S5000x64.Idx) (k : S100000x64.Idx)
    (h0 : (k 0).val = 5000 * t.val + (x 0).val) (h1 : (k 1).val = (x 1).val) :
    (((cfg0.win 0).blk t).view.read (Elt Ideal) A : Vec Ideal S5000x64 .f32) x = (A : S100000x64.Idx → EReal) k := by
  obtain ⟨e0, e1, -⟩ := idx_rows t
  show A (((cfg0.win 0).blk t).view.emb x) = A k
  congr 1
  funext a
  apply Fin.ext
  match a with
  | ⟨0, _⟩ => show win0_0.index t (0 : Fin 2) * 5000 + 1 * (x 0).val = (k 0).val; rw [e0, h0]; omega
  | ⟨1, _⟩ => show win0_0.index t (1 : Fin 2) * 64 + 1 * (x 1).val = (k 1).val; rw [e1, h1]; omega

/-- The same for an array of 100000 rows of 4. -/
theorem rows_read1 (c : Dev nD) (t : Fin cfg0.N) (A : Buf (Elt Ideal) ((c : Thread nD τ).loc main_arg2))
    (x : S5000x4.Idx) (k : S100000x4.Idx)
    (h0 : (k 0).val = 5000 * t.val + (x 0).val) (h1 : (k 1).val = (x 1).val) :
    (((cfg0.win 1).blk t).view.read (Elt Ideal) A : Vec Ideal S5000x4 .f32) x = (A : S100000x4.Idx → EReal) k := by
  obtain ⟨-, -, e0, e1, -⟩ := idx_rows t
  show A (((cfg0.win 1).blk t).view.emb x) = A k
  congr 1
  funext a
  apply Fin.ext
  match a with
  | ⟨0, _⟩ => show win0_1.index t (0 : Fin 2) * 5000 + 1 * (x 0).val = (k 0).val; rw [e0, h0]; omega
  | ⟨1, _⟩ => show win0_1.index t (1 : Fin 2) * 4 + 1 * (x 1).val = (k 1).val; rw [e1, h1]; omega

/-- The expert matrices are read whole: the block at t is the array. -/
theorem whole_read2 (c : Dev nD) (t : Fin cfg0.N) (A : Buf (Elt Ideal) ((c : Thread nD τ).loc main_arg3)) :
    (((cfg0.win 2).blk t).view.read (Elt Ideal) A : Vec Ideal S3x64x64 .f32) = (A : S3x64x64.Idx → EReal) := by
  obtain ⟨⟨e0, e1, e2⟩, -, -⟩ := idx_whole t
  funext x
  show A (((cfg0.win 2).blk t).view.emb x) = A x
  congr 1
  funext a
  apply Fin.ext
  match a with
  | ⟨0, _⟩ => show win0_2.index t (0 : Fin 3) * 3 + 1 * (x 0).val = (x 0).val; rw [e0]; omega
  | ⟨1, _⟩ => show win0_2.index t (1 : Fin 3) * 64 + 1 * (x 1).val = (x 1).val; rw [e1]; omega
  | ⟨2, _⟩ => show win0_2.index t (2 : Fin 3) * 64 + 1 * (x 2).val = (x 2).val; rw [e2]; omega

/-- The expert biases are read whole. -/
theorem whole_read3 (c : Dev nD) (t : Fin cfg0.N) (A : Buf (Elt Ideal) ((c : Thread nD τ).loc main_arg4)) :
    (((cfg0.win 3).blk t).view.read (Elt Ideal) A : Vec Ideal S3x64 .f32) = (A : S3x64.Idx → EReal) := by
  obtain ⟨-, ⟨e0, e1⟩, -⟩ := idx_whole t
  funext x
  show A (((cfg0.win 3).blk t).view.emb x) = A x
  congr 1
  funext a
  apply Fin.ext
  match a with
  | ⟨0, _⟩ => show win0_3.index t (0 : Fin 2) * 3 + 1 * (x 0).val = (x 0).val; rw [e0]; omega
  | ⟨1, _⟩ => show win0_3.index t (1 : Fin 2) * 64 + 1 * (x 1).val = (x 1).val; rw [e1]; omega

/-- The gate matrix is read whole. -/
theorem whole_read4 (c : Dev nD) (t : Fin cfg0.N) (A : Buf (Elt Ideal) ((c : Thread nD τ).loc main_arg5)) :
    (((cfg0.win 4).blk t).view.read (Elt Ideal) A : Vec Ideal S4x3 .f32) = (A : S4x3.Idx → EReal) := by
  obtain ⟨-, -, ⟨e0, e1⟩⟩ := idx_whole t
  funext x
  show A (((cfg0.win 4).blk t).view.emb x) = A x
  congr 1
  funext a
  apply Fin.ext
  match a with
  | ⟨0, _⟩ => show win0_4.index t (0 : Fin 2) * 4 + 1 * (x 0).val = (x 0).val; rw [e0]; omega
  | ⟨1, _⟩ => show win0_4.index t (1 : Fin 2) * 3 + 1 * (x 1).val = (x 1).val; rw [e1]; omega

/-- Block t of the aggregated features, as the host operations left them: rows 5000·t … 5000·t + 4999. -/
theorem agg_block (c : Dev nD) (t : Fin cfg0.N) (x : S5000x64.Idx) (k : S100000x64.Idx)
    (h0 : (k 0).val = 5000 * t.val + (x 0).val) (h1 : (k 1).val = (x 1).val) :
    (iblk m c 0 t : Vec Ideal S5000x64 .f32) x = (V m c main_v42 : S100000x64.Idx → EReal) k :=
  rows_read0 c t (V m c main_v42) x k h0 h1

/-- Block t of the gate features, an argument no host operation writes: rows 5000·t … 5000·t + 4999 of the argument. -/
theorem gate_block (c : Dev nD) (t : Fin cfg0.N) (x : S5000x4.Idx) (k : S100000x4.Idx)
    (h0 : (k 0).val = 5000 * t.val + (x 0).val) (h1 : (k 1).val = (x 1).val) :
    (iblk m c 1 t : Vec Ideal S5000x4 .f32) x = (m ((c : Thread nD τ).loc main_arg2) : S100000x4.Idx → EReal) k :=
  (rows_read1 c t (V m c main_arg2) x k h0 h1).trans (congrFun (V_main_arg2 m c) k)

/-- The expert matrices at every block are the argument. -/
theorem weights_block (c : Dev nD) (t : Fin cfg0.N) :
    (iblk m c 2 t : Vec Ideal S3x64x64 .f32) = m ((c : Thread nD τ).loc main_arg3) :=
  (whole_read2 c t (V m c main_arg3)).trans (V_main_arg3 m c)

/-- The expert biases at every block are the argument. -/
theorem bias_block (c : Dev nD) (t : Fin cfg0.N) :
    (iblk m c 3 t : Vec Ideal S3x64 .f32) = m ((c : Thread nD τ).loc main_arg4) :=
  (whole_read3 c t (V m c main_arg4)).trans (V_main_arg4 m c)

/-- The gate matrix at every block is the argument. -/
theorem gatew_block (c : Dev nD) (t : Fin cfg0.N) :
    (iblk m c 4 t : Vec Ideal S4x3 .f32) = m ((c : Thread nD τ).loc main_arg5) :=
  (whole_read4 c t (V m c main_arg5)).trans (V_main_arg5 m c)

/-! ## One block of the output -/

/-- Row p of the block the body writes, when row p of its two row-blocked inputs is row n of the arrays: the layer's
    formula at row n. -/
theorem row_formula (x0 : Vec Ideal S5000x64 .f32) (x1 : Vec Ideal S5000x4 .f32) (x2 : Vec Ideal S3x64x64 .f32)
    (x3 : Vec Ideal S3x64 .f32) (x4 : Vec Ideal S4x3 .f32)
    (agg : S100000x64.Idx → EReal) (gf : S100000x4.Idx → EReal) (p : Fin 5000) (q : Fin 64) (n : Fin 100000)
    (h0 : ∀ d : Fin 64, x0 (ix2 p d) = agg (ix2 n d)) (h1 : ∀ d : Fin 4, x1 (ix2 p d) = gf (ix2 n d)) :
    out0_5 (F := Ideal) x0 x1 x2 x3 x4 (ix2 p q) = Cert.Spec.G agg gf x2 x3 x4 (ix2 n q) := by
  refine (Payload.out_apply x0 x1 x2 x3 x4 p q).trans ?_
  show Cert.Spec.combine (Cert.Spec.gate (Cert.Spec.logit (fun k => x1 (ix2 p k)) (fun k j => x4 (ix2 k j))))
        (fun e => ∑ d : Fin 64, x0 (ix2 p d) * x2 (ix3 e d q)) (fun e => x3 (ix2 e q))
      = Cert.Spec.combine (Cert.Spec.gate (Cert.Spec.logit (fun k => gf (ix2 n k)) (fun k j => x4 (ix2 k j))))
        (fun e => ∑ d : Fin 64, agg (ix2 n d) * x2 (ix3 e d q)) (fun e => x3 (ix2 e q))
  simp only [h0, h1]

/-- The same at an entry y of the block and an entry k of the array, k being r rows below y. -/
theorem entry_formula (x0 : Vec Ideal S5000x64 .f32) (x1 : Vec Ideal S5000x4 .f32) (x2 : Vec Ideal S3x64x64 .f32)
    (x3 : Vec Ideal S3x64 .f32) (x4 : Vec Ideal S4x3 .f32)
    (agg : S100000x64.Idx → EReal) (gf : S100000x4.Idx → EReal) (r : Nat) (y : S5000x64.Idx) (k : S100000x64.Idx)
    (hk0 : (k 0).val = r + (y 0).val) (hk1 : (k 1).val = (y 1).val)
    (h0 : ∀ (x : S5000x64.Idx) (i : S100000x64.Idx), (i 0).val = r + (x 0).val → (i 1).val = (x 1).val → x0 x = agg i)
    (h1 : ∀ (x : S5000x4.Idx) (i : S100000x4.Idx), (i 0).val = r + (x 0).val → (i 1).val = (x 1).val → x1 x = gf i) :
    out0_5 (F := Ideal) x0 x1 x2 x3 x4 y = Cert.Spec.G agg gf x2 x3 x4 k := by
  have hq : k 1 = (y 1 : Fin 64) := Fin.ext hk1
  have hk : k = ix2 (k 0) (y 1 : Fin 64) := (eq_ix2 k).trans (congrArg (ix2 (k 0)) hq)
  rw [eq_ix2 y, hk]
  exact row_formula x0 x1 x2 x3 x4 agg gf (y 0) (y 1) (k 0)
    (fun d => h0 (ix2 (n0 := 5000) (y 0) d) (ix2 (n0 := 100000) (k 0) d) hk0 rfl)
    (fun d => h1 (ix2 (n0 := 5000) (y 0) d) (ix2 (n0 := 100000) (k 0) d) hk0 rfl)

/-- What the body makes of blocks that are rows 5000·t … of the arrays is rows 5000·t … of the layer's formula. -/
theorem block_eq (t : Fin cfg0.N) (x0 : Vec Ideal S5000x64 .f32) (x1 : Vec Ideal S5000x4 .f32) (x2 : Vec Ideal S3x64x64 .f32)
    (x3 : Vec Ideal S3x64 .f32) (x4 : Vec Ideal S4x3 .f32)
    (agg : S100000x64.Idx → EReal) (gf : S100000x4.Idx → EReal) (W : S3x64x64.Idx → EReal) (b : S3x64.Idx → EReal)
    (wg : S4x3.Idx → EReal)
    (h0 : ∀ (x : S5000x64.Idx) (i : S100000x64.Idx), (i 0).val = 5000 * t.val + (x 0).val → (i 1).val = (x 1).val → x0 x = agg i)
    (h1 : ∀ (x : S5000x4.Idx) (i : S100000x4.Idx), (i 0).val = 5000 * t.val + (x 0).val → (i 1).val = (x 1).val → x1 x = gf i)
    (h2 : x2 = W) (h3 : x3 = b) (h4 : x4 = wg) :
    (cfg0.win 5).cut (grid0.coords t) (out0_5 (F := Ideal) x0 x1 x2 x3 x4)
      = ((cfg0.win 5).blk t).view.read (Elt Ideal) (Cert.Spec.G agg gf W b wg) := by
  subst h2 h3 h4
  obtain ⟨-, -, -, -, e0, e1⟩ := idx_rows t
  funext y
  show out0_5 (F := Ideal) x0 x1 x2 x3 x4 (y : S5000x64.Idx) = Cert.Spec.G agg gf x2 x3 x4 (((cfg0.win 5).blk t).view.emb y)
  refine entry_formula x0 x1 x2 x3 x4 agg gf (5000 * t.val) y _ ?_ ?_ h0 h1
  · show win0_5.index t (0 : Fin 2) * 5000 + 1 * (y 0).val = 5000 * t.val + (y 0).val
    rw [e0]; omega
  · show win0_5.index t (1 : Fin 2) * 64 + 1 * (y 1).val = (y 1).val
    rw [e1]; omega

/-- What block t writes back is block t of the layer's formula of the aggregated features and the arguments. -/
theorem flushed_eq (c : Dev nD) (t : Fin cfg0.N) :
    (dats m 0 c).flushed 5 t = ((cfg0.win 5).blk t).view.read (Elt Ideal)
      (Cert.Spec.G (V m c main_v42) (m ((c : Thread nD τ).loc main_arg2)) (m ((c : Thread nD τ).loc main_arg3))
        (m ((c : Thread nD τ).loc main_arg4)) (m ((c : Thread nD τ).loc main_arg5))) := by
  rw [Value.flushed5]
  exact block_eq t _ _ _ _ _ _ _ _ _ _ (agg_block m c t) (gate_block m c t) (weights_block m c t) (bias_block m c t)
    (gatew_block m c t)

/-! ## The twenty blocks tile the output -/

/-- An entry of the output is in block t iff each coordinate is in the block's range on its axis. -/
theorem mem_block (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v43).slice (win0_5.rect t)).set ↔ _
  rw [View.set_slice_whole, Rect.mem_set_unit]
  exact Iff.rfl

/-- Row r is in block r / 5000, and every block is written back. -/
theorem cover (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 20 := by decide
  have ht : (i 0).val / 5000 < cfg0.N := by rw [hN]; omega
  obtain ⟨-, -, -, -, e0, e1⟩ := idx_rows ⟨(i 0).val / 5000, ht⟩
  refine ⟨⟨(i 0).val / 5000, ht⟩, flush0_5 _, ?_⟩
  rw [mem_block]
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, ht⟩ (1 : Fin 2) * 64 ≤ (i 1).val ∧ (i 1).val < win0_5.index ⟨(i 0).val / 5000, ht⟩ (1 : Fin 2) * 64 + 64
    rw [e1]; omega

/-- So the output array after the run is the layer's formula. -/
theorem final (c : Dev nD) : (dats m 0 c).arrAt 5 cfg0.N
    = Cert.Spec.G (V m c main_v42) (m ((c : Thread nD τ).loc main_arg2)) (m ((c : Thread nD τ).loc main_arg3))
        (m ((c : Thread nD τ).loc main_arg4)) (m ((c : Thread nD τ).loc main_arg5)) :=
  (dats m 0 c).arrAt_eq_of_cover 5 _ (fun t _ => flushed_eq m c t) cover

/-- The output array after the run is the layer's formula of the aggregated features the host operations left and of the
    argument arrays: the twenty row blocks of 5000 nodes tile the array, and each block is the formula on its rows. -/
theorem run : θ_run defs (onTc (τ := τ) (main (F := Ideal))) ⟨m, fun _ => 0, ρ⟩ fun r => ∀ c : Dev nD,
      r.2.mem ((c : Thread nD τ).loc main_v43)
        = Cert.Spec.G (V m c main_v42) (m ((c : Thread nD τ).loc main_arg2)) (m ((c : Thread nD τ).loc main_arg3))
            (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.KValue

end
-- ==== Proof.HostPrefix.lean ====
/-
  The aggregated features the kernel's host operations compute, in the reference's vocabulary.

  Before the pallas region the kernel program computes, with the same operations as the reference, the edge weights
  norm, the row and column index columns, and then agg = Σ over the edges into a node of norm · x[row]: the accumulating
  scatter, into zeros along the column indices, of the broadcast norm times the gathered rows of x. Every piece except the
  final product and scatter is, operation for operation, a stage of the reference program.
-/
import proofs.«171982_j7086696038965_1_alg».proof.Proof.Gen.KernelIdeal.Frame
import proofs.«171982_j7086696038965_1_alg».proof.Proof.RefRead
import Idealize.ShloMosaic.Lib.StableHlo.Run

set_option maxRecDepth 16384

noncomputable section

namespace Cert.HostPrefix

open Idealize.ShloMosaic Idealize.ShloMosaic.TcCoe Idealize.SL.Sem Idealize.ShloMosaic.StableHlo

variable {F : FTy → Type} [FloatOps F]

/-- agg[n, d] = Σ over the edges e into node n of norm[e] · x[row e, d], as the host computes it: zeros, scattered into
    along the column indices with the broadcast edge weights times the gathered rows of x. -/
def agg (x0 : (⟨Cert.ReferenceIdeal.S100000x64, .f32⟩ : BufTy).Contents (Elt F))
    (x1 : (⟨Cert.ReferenceIdeal.S2x1600000, .i32⟩ : BufTy).Contents (Elt F)) :
    (⟨Cert.ReferenceIdeal.S100000x64, .f32⟩ : BufTy).Contents (Elt F) :=
  Host.scatterAdd Cert.ReferenceIdeal.scatter_S100000x64_S1700000x1_S1700000x64_1_0_0_1
    (Cert.ReferenceIdeal.ReadP.val_main_v58 (F := F)) (Cert.ReferenceIdeal.ReadP.val_main_v59 (F := F) x1)
    (mulf (Cert.ReferenceIdeal.ReadP.val_main_v56 (F := F) x1)
      (Host.gather Cert.ReferenceIdeal.gather_S100000x64_S1700000x1_S1700000x64_1_0_n_n_0_1_164 x0
        (Cert.ReferenceIdeal.ReadP.val_main_v53 (F := F) x1)))

set_option maxHeartbeats 8000000 in
open Cert.KernelIdeal Cert.KernelIdeal.Gen in
/-- When the region is entered, its first window's array holds agg of the launch contents of x and edge_index. -/
theorem V_agg (m : (ℓ : Loc nD τ sig) → Buf (Elt F) ℓ) (c : Dev nD) :
    V m c main_v42 = agg (m ((c : Thread nD τ).loc main_arg0)) (m ((c : Thread nD τ).loc main_arg1)) := by
  dsimp only [Gen.V]
  simp only [hostOps0, hostOps0_1, hostOps0_2, List.flatten_cons, List.flatten_nil, List.append_nil, List.cons_append,
    List.nil_append]
  after_results_simp
  rfl

end Cert.HostPrefix

end
-- ==== Proof.LibGathers.lean ====
/-
  A gather along the leading axis, read at an index.

  `x[i]` for a table `x` whose first axis has extent N and a column of index words `i` (one word per result row) is
  a StableHLO gather that collapses the first operand axis, takes its start from the one-word index vector, and copies
  the remaining axes whole. Result row t is operand row `clamp(i[t])`: the word read as a signed integer, negative
  values to 0 (the conversion to a natural number), values past the end to N − 1 (the gather's own clamp of every
  start index). Two shapes of table: a flat one (rows are single entries) and one whose rows are A × B matrices.
-/
import Idealize.ShloMosaic.PureOps
import Idealize.ShloMosaic.Lib.ValueIdx

noncomputable section

namespace Cert.Basis

open Idealize.ShloMosaic Idealize.ShloMosaic.ValueIdx

variable {α : Type}

/-- The dimension numbers of `x[i]` for a flat table of N entries and T index words in a column. -/
abbrev flatDims (N T : Nat) (wf : GatherDims.WF ⟨1, ![N]⟩ ⟨2, ![T, 1]⟩ ⟨1, ![T]⟩ [] [0] [] [0] [] 1 ![1]) :
    GatherDims ⟨1, ![N]⟩ ⟨2, ![T, 1]⟩ ⟨1, ![T]⟩ where
  offsetDims := []
  collapsedSliceDims := [0]
  operandBatchingDims := []
  startIndicesBatchingDims := []
  startIndexMap := [0]
  indexVectorDim := 1
  sliceSizes := ![1]
  wf := wf

/-- Result entry t is the table's entry at t's index word, read signed and clamped into [0, N − 1]. -/
theorem gather_flat_apply {N T : Nat} (hN : 0 < N)
    (wf : GatherDims.WF ⟨1, ![N]⟩ ⟨2, ![T, 1]⟩ ⟨1, ![T]⟩ [] [0] [] [0] [] 1 ![1])
    (x : (⟨1, ![N]⟩ : Shape).Idx → α) (idx : IVec ⟨2, ![T, 1]⟩ 32) (t : Fin T) :
    Host.gather (flatDims N T wf) x idx (ix1 t)
      = x (ix1 ⟨min (idx (ix2 t (0 : Fin 1))).toInt.toNat (N - 1), by omega⟩) := by
  unfold Host.gather
  congr 1
  funext a
  obtain rfl : a = 0 := Subsingleton.elim _ _
  refine Fin.ext ?_
  show (flatDims N T wf).start (ix1 t) idx 0 + (flatDims N T wf).batchCoord (ix1 t) 0
    + (flatDims N T wf).offCoord (ix1 t) 0 = _
  -- the one operand axis is collapsed and not a batching axis: no batching and no offset coordinate
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  -- it is in the start index map: the start is the index word, clamped to N − 1
  unfold GatherDims.start
  rw [dif_pos (show (0 : Fin 1) ∈ (flatDims N T wf).startIndexMap from List.mem_singleton.mpr rfl)]
  -- the word is read at (t, 0): t on the batch axis, 0 on the index vector's axis
  have hsi : (flatDims N T wf).siIdx (ix1 t) ⟨List.idxOf (0 : Fin 1) (flatDims N T wf).startIndexMap,
      List.idxOf_lt_length_iff.2 (List.mem_singleton.mpr rfl)⟩ = ix2 t (0 : Fin 1) := by
    funext b; refine Fin.ext ?_
    match b with
    | ⟨0, _⟩ => rfl
    | ⟨1, _⟩ => rfl
  rw [hsi]
  rfl

/-- The dimension numbers of `x[i]` for a table of N rows, each an A × B matrix, and T index words in a column. -/
abbrev rowsDims (N A B T : Nat)
    (wf : GatherDims.WF ⟨3, ![N, A, B]⟩ ⟨2, ![T, 1]⟩ ⟨3, ![T, A, B]⟩ [1, 2] [0] [] [0] [] 1 ![1, A, B]) :
    GatherDims ⟨3, ![N, A, B]⟩ ⟨2, ![T, 1]⟩ ⟨3, ![T, A, B]⟩ where
  offsetDims := [1, 2]
  collapsedSliceDims := [0]
  operandBatchingDims := []
  startIndicesBatchingDims := []
  startIndexMap := [0]
  indexVectorDim := 1
  sliceSizes := ![1, A, B]
  wf := wf

/-- Axis 0 of the operand index: collapsed and in the start index map, so it is the index word read at (t, 0),
    signed and clamped to N − 1, with no batching and no offset coordinate. -/
private theorem rows_coord0 {N A B T : Nat}
    (wf : GatherDims.WF ⟨3, ![N, A, B]⟩ ⟨2, ![T, 1]⟩ ⟨3, ![T, A, B]⟩ [1, 2] [0] [] [0] [] 1 ![1, A, B])
    (idx : IVec ⟨2, ![T, 1]⟩ 32) (t : Fin T) (a : Fin A) (b : Fin B) :
    (rowsDims N A B T wf).start (ix3 t a b) idx (0 : Fin 3) + (rowsDims N A B T wf).batchCoord (ix3 t a b) (0 : Fin 3)
      + (rowsDims N A B T wf).offCoord (ix3 t a b) (0 : Fin 3)
      = min (idx (ix2 t (0 : Fin 1))).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 3) ∈ (rowsDims N A B T wf).startIndexMap from List.mem_singleton.mpr rfl)]
  have hsi : (rowsDims N A B T wf).siIdx (ix3 t a b) ⟨List.idxOf (0 : Fin 3) (rowsDims N A B T wf).startIndexMap,
      List.idxOf_lt_length_iff.2 (List.mem_singleton.mpr rfl)⟩ = ix2 t (0 : Fin 1) := by
    funext e; refine Fin.ext ?_
    match e with
    | ⟨0, _⟩ => rfl
    | ⟨1, _⟩ => rfl
  rw [hsi]
  rfl

/-- Axis 1 of the operand index: not in the start index map (start 0), not a batching axis, and the first of the
    kept axes [1, 2], which the offset axes [1, 2] read in order: it is result coordinate 1. -/
private theorem rows_coord1 {N A B T : Nat}
    (wf : GatherDims.WF ⟨3, ![N, A, B]⟩ ⟨2, ![T, 1]⟩ ⟨3, ![T, A, B]⟩ [1, 2] [0] [] [0] [] 1 ![1, A, B])
    (idx : IVec ⟨2, ![T, 1]⟩ 32) (t : Fin T) (a : Fin A) (b : Fin B) :
    (rowsDims N A B T wf).start (ix3 t a b) idx (1 : Fin 3) + (rowsDims N A B T wf).batchCoord (ix3 t a b) (1 : Fin 3)
      + (rowsDims N A B T wf).offCoord (ix3 t a b) (1 : Fin 3) = a.val := by
  have hm : (1 : Fin 3) ∉ [(0 : Fin 3)] := by decide
  rw [GatherDims.batchCoord_eq_zero _ _ _ List.not_mem_nil, Nat.add_zero]
  have hs : (rowsDims N A B T wf).start (ix3 t a b) idx (1 : Fin 3) = 0 := by
    unfold GatherDims.start
    exact dif_neg hm
  have ho : (rowsDims N A B T wf).offCoord (ix3 t a b) (1 : Fin 3) = a.val := by
    unfold GatherDims.offCoord
    rw [dif_pos ((GatherDims.mem_sKept _ _).mpr ⟨hm, List.not_mem_nil⟩)]
    rfl
  rw [hs, ho, Nat.zero_add]

/-- Axis 2 of the operand index: start 0, no batching coordinate, the second kept axis: result coordinate 2. -/
private theorem rows_coord2 {N A B T : Nat}
    (wf : GatherDims.WF ⟨3, ![N, A, B]⟩ ⟨2, ![T, 1]⟩ ⟨3, ![T, A, B]⟩ [1, 2] [0] [] [0] [] 1 ![1, A, B])
    (idx : IVec ⟨2, ![T, 1]⟩ 32) (t : Fin T) (a : Fin A) (b : Fin B) :
    (rowsDims N A B T wf).start (ix3 t a b) idx (2 : Fin 3) + (rowsDims N A B T wf).batchCoord (ix3 t a b) (2 : Fin 3)
      + (rowsDims N A B T wf).offCoord (ix3 t a b) (2 : Fin 3) = b.val := by
  have hm : (2 : Fin 3) ∉ [(0 : Fin 3)] := by decide
  rw [GatherDims.batchCoord_eq_zero _ _ _ List.not_mem_nil, Nat.add_zero]
  have hs : (rowsDims N A B T wf).start (ix3 t a b) idx (2 : Fin 3) = 0 := by
    unfold GatherDims.start
    exact dif_neg hm
  have ho : (rowsDims N A B T wf).offCoord (ix3 t a b) (2 : Fin 3) = b.val := by
    unfold GatherDims.offCoord
    rw [dif_pos ((GatherDims.mem_sKept _ _).mpr ⟨hm, List.not_mem_nil⟩)]
    rfl
  rw [hs, ho, Nat.zero_add]

/-- Result entry (t, a, b) is entry (a, b) of the table's row at t's index word, read signed and clamped. -/
theorem gather_rows_apply {N A B T : Nat} (hN : 0 < N)
    (wf : GatherDims.WF ⟨3, ![N, A, B]⟩ ⟨2, ![T, 1]⟩ ⟨3, ![T, A, B]⟩ [1, 2] [0] [] [0] [] 1 ![1, A, B])
    (x : (⟨3, ![N, A, B]⟩ : Shape).Idx → α) (idx : IVec ⟨2, ![T, 1]⟩ 32) (t : Fin T) (a : Fin A) (b : Fin B) :
    Host.gather (rowsDims N A B T wf) x idx (ix3 t a b)
      = x (ix3 ⟨min (idx (ix2 t (0 : Fin 1))).toInt.toNat (N - 1), by omega⟩ a b) := by
  unfold Host.gather
  congr 1
  -- the operand index agrees with (clamped word, a, b) axis by axis
  funext c
  refine Fin.ext ?_
  match c with
  | ⟨0, _⟩ => exact rows_coord0 wf idx t a b
  | ⟨1, _⟩ => exact rows_coord1 wf idx t a b
  | ⟨2, _⟩ => exact rows_coord2 wf idx t a b

end Cert.Basis

end
-- ==== Proof.Finite.lean ====
/-
  Finiteness facts the certificate's algebra needs, at the extended reals.

  (1) The precondition is the conjunction of five tests all(|v| < +∞), one per float input. An extended real whose
  absolute value max(a, -a) lies below +∞ is neither -∞ nor +∞, so it is a real number: under the precondition every
  entry of the feature array x and of the experts' weight array W is a real.
  (2) The edge weight norm[e] = dinv[row e] · dinv[col e], with dinv = where(deg > 0, 1/√deg, 0). Where deg > 0 the
  reciprocal square root is a real (1/√r at a positive real r, 0 at +∞); elsewhere dinv is 0. A gather along the one
  axis of dinv picks an entry of dinv at a clamped index, so both factors are real and so is their product. No
  assumption on the degree array or on the index words is used.
-/
import proofs.«171982_j7086696038965_1_alg».proof.Defs
import proofs.«171982_j7086696038965_1_alg».proof.Proof.RefRead
import proofs.«171982_j7086696038965_1_alg».proof.Proof.LibGathers
import Idealize.ShloMosaic.Lib.ValueIdx
import Idealize.ShloMosaic.Lib.ReduceAll
import Idealize.ShloMosaic.PureOps.Ideal.Laws

noncomputable section

namespace Cert.Finite

open Idealize.ShloMosaic Idealize.ShloMosaic.ValueIdx

/-- The rank-0 shape has one index. -/
instance : Subsingleton (⟨0, ![]⟩ : Shape).Idx := ⟨fun a b => funext fun d => d.elim0⟩

/-- An extended real whose absolute value max(a, -a) lies below +∞ is a real number: at -∞ and at +∞ the
    absolute value is +∞. -/
theorem real_of_abs_lt_top (a : EReal) (h : max a (-a) < ⊤) : ∃ r : ℝ, a = (r : EReal) := by
  induction a using EReal.rec with
  | bot => simp at h
  | top => simp at h
  | coe r => exact ⟨r, rfl⟩

/-- The bit pattern 0x7F800000 denotes +∞. -/
theorem ofBits_inf_f32 : Ideal.ofBits .f32 0x7F800000#32 = (⊤ : EReal) := by
  simp [Ideal.ofBits, Ideal.ieee]

/-- all(|v| < +∞) over an array of any shape: if the conjunction of the entrywise tests is the word 1, every entry
    of v is a real number. -/
theorem real_of_all_abs_lt_inf {S : Shape} {axes : List (Fin S.rank)}
    (hb : (⟨0, ![]⟩ : Shape).BroadcastsInDim S (![] : Fin 0 → Fin S.rank))
    (hr : S.ReducesTo axes (⟨0, ![]⟩ : Shape)) (hu : 0 < (⟨0, ![]⟩ : Shape).numel)
    (v : FVec Ideal S .f32)
    (h : Host.reduce IntOp.andi
        (cmpf .olt (Host.absf v) (broadcastInDim S ![] hb (constant (F := Ideal) (⟨0, ![]⟩ : Shape) .f32 0x7F800000#32)))
        (constantI (⟨0, ![]⟩ : Shape) 1 1#1) hr hu ix0 = 1#1)
    (i : S.Idx) : ∃ r : ℝ, v i = (r : EReal) := by
  have hi := Host.reduce_andi_all _ _ hr hu ix0 h i
  -- the entrywise test at i: max(v i, -(v i)) < +∞
  have hi' : Ideal.cmp .olt (max (v i) (-(v i))) (Ideal.ofBits .f32 0x7F800000#32) = 1#1 := hi
  rw [ofBits_inf_f32] at hi'
  refine real_of_abs_lt_top (v i) ?_
  by_contra hn
  simp [Ideal.cmp, hn] at hi'

/-- Under the precondition every entry of the feature array x is a real number. -/
theorem x_real [Cert.Pre_finite_inputs.Facts]
    (x0 : FVec Ideal Cert.Pre_finite_inputs.S100000x64 .f32) (x1 : IVec Cert.Pre_finite_inputs.S2x1600000 32)
    (x2 : FVec Ideal Cert.Pre_finite_inputs.S100000x4 .f32) (x3 : FVec Ideal Cert.Pre_finite_inputs.S3x64x64 .f32)
    (x4 : FVec Ideal Cert.Pre_finite_inputs.S3x64 .f32) (x5 : FVec Ideal Cert.Pre_finite_inputs.S4x3 .f32)
    (h : Cert.Pre_finite_inputs.fn (F := Ideal) x0 x1 x2 x3 x4 x5 = (fun _ => 1#1)) (i : Cert.Pre_finite_inputs.S100000x64.Idx) :
    ∃ r : ℝ, x0 i = (r : EReal) := by
  have h0 := congrFun h ValueIdx.ix0
  dsimp only [Cert.Pre_finite_inputs.fn, Cert.Pre_finite_inputs.fn_part1] at h0
  -- the precondition is a conjunction of five tests; the test on x is the innermost left conjunct
  obtain ⟨h1, -⟩ := IntOp.andi_eq_one.1 h0
  obtain ⟨h2, -⟩ := IntOp.andi_eq_one.1 h1
  obtain ⟨h3, -⟩ := IntOp.andi_eq_one.1 h2
  obtain ⟨hx, -⟩ := IntOp.andi_eq_one.1 h3
  exact real_of_all_abs_lt_inf _ _ _ x0 hx i

/-- Under the precondition every entry of the experts' weight array W is a real number. -/
theorem w_real [Cert.Pre_finite_inputs.Facts]
    (x0 : FVec Ideal Cert.Pre_finite_inputs.S100000x64 .f32) (x1 : IVec Cert.Pre_finite_inputs.S2x1600000 32)
    (x2 : FVec Ideal Cert.Pre_finite_inputs.S100000x4 .f32) (x3 : FVec Ideal Cert.Pre_finite_inputs.S3x64x64 .f32)
    (x4 : FVec Ideal Cert.Pre_finite_inputs.S3x64 .f32) (x5 : FVec Ideal Cert.Pre_finite_inputs.S4x3 .f32)
    (h : Cert.Pre_finite_inputs.fn (F := Ideal) x0 x1 x2 x3 x4 x5 = (fun _ => 1#1)) (i : Cert.Pre_finite_inputs.S3x64x64.Idx) :
    ∃ r : ℝ, x3 i = (r : EReal) := by
  have h0 := congrFun h ValueIdx.ix0
  dsimp only [Cert.Pre_finite_inputs.fn, Cert.Pre_finite_inputs.fn_part1] at h0
  -- the test on W is the third of the five conjuncts
  obtain ⟨h1, -⟩ := IntOp.andi_eq_one.1 h0
  obtain ⟨h2, -⟩ := IntOp.andi_eq_one.1 h1
  obtain ⟨-, hw⟩ := IntOp.andi_eq_one.1 h2
  exact real_of_all_abs_lt_inf _ _ _ x3 hw i

/-- The reciprocal square root of a positive extended real is a real number: 1/√r at a positive real r, and 0 at +∞. -/
theorem rsqrt_real_of_pos (d : EReal) (hd : 0 < d) : ∃ r : ℝ, Ideal.rsqrt d = (r : EReal) := by
  induction d using EReal.rec with
  | bot => exact absurd hd (not_lt.mpr bot_le)
  | top => exact ⟨0, by rw [Ideal.rsqrt_top, EReal.coe_zero]⟩
  | coe r =>
    have hr : 0 < r := EReal.coe_pos.mp hd
    exact ⟨(Real.sqrt r)⁻¹, by rw [Ideal.rsqrt_coe, if_neg (not_lt.mpr hr.le), if_neg hr.ne']⟩

/-- where(d > 0, 1/√d, 0) is a real number at every extended real d: where the test holds d is positive and the
    reciprocal square root is a real; elsewhere the value is 0. -/
theorem select_rsqrt_real (d : EReal) :
    ∃ r : ℝ, Scalar.select (Ideal.cmp .ogt d (Ideal.ofBits .f32 0x00000000#32)) (Ideal.rsqrt d)
      (Ideal.ofBits .f32 0x00000000#32) = (r : EReal) := by
  rw [Ideal.ofBits_zero_f32]
  unfold Scalar.select
  by_cases hd : 0 < d
  · have hc : Ideal.cmp .ogt d 0 = 1 := by simp [Ideal.cmp, hd]
    rw [if_pos hc]
    exact rsqrt_real_of_pos d hd
  · have hc : ¬ Ideal.cmp .ogt d 0 = 1 := by simp [Ideal.cmp, hd]
    rw [if_neg hc]
    exact ⟨0, EReal.coe_zero.symm⟩

/-- Every entry of dinv = where(deg > 0, 1/√deg, 0) is a real number, whatever the degree array holds. -/
theorem dinv_real (x1 : IVec Cert.ReferenceIdeal.S2x1600000 32) (i : Cert.ReferenceIdeal.S100000.Idx) :
    ∃ r : ℝ, Cert.ReferenceIdeal.ReadP.val_main_v14 (F := Ideal) x1 i = (r : EReal) := by
  -- read the select, the compare, the reciprocal square root and the two zero broadcasts at i
  rw [Cert.ReferenceIdeal.ReadP.val_main_v14_apply, Cert.ReferenceIdeal.ReadP.val_main_v12_apply,
    Cert.ReferenceIdeal.ReadP.val_main_v13_apply, Cert.ReferenceIdeal.ReadP.val_main_v11_apply,
    Cert.ReferenceIdeal.ReadP.val_main_call0_v1_apply, Cert.ReferenceIdeal.ReadP.val_main_call0_v0_apply,
    Cert.ReferenceIdeal.ReadP.val_main_cst_1_apply, Cert.ReferenceIdeal.ReadP.val_main_cst_2_apply]
  rw [Ideal.cmpf_def, Ideal.hostUnary_rsqrt_def, Ideal.ofBits_def]
  exact select_rsqrt_real _

/-- The edge weight norm[e] = dinv[row e] · dinv[col e] is a real number for every edge and any index words: dinv is
    1/√deg where deg > 0 (a real, or 0 at deg = +∞) and 0 elsewhere, and a gather only picks entries of dinv. -/
theorem norm_real (x1 : IVec Cert.ReferenceIdeal.S2x1600000 32) (e : Fin 1700000) :
    ∃ r : ℝ, Cert.ReferenceIdeal.ReadP.val_main_v29 (F := Ideal) x1 (ix1 e) = (r : EReal) := by
  rw [Cert.ReferenceIdeal.ReadP.val_main_v29_apply]
  -- each factor is a gather from dinv along its one axis: the entry of dinv at the clamped index word
  have h21 := Cert.Basis.gather_flat_apply (N := 100000) (T := 1700000) (by norm_num)
    Cert.ReferenceIdeal.Facts₀.gather_S100000_S1700000x1_S1700000_n_0_n_n_0_1_1_wf
    (Cert.ReferenceIdeal.ReadP.val_main_v14 (F := Ideal) x1) (Cert.ReferenceIdeal.ReadP.val_main_v20 (F := Ideal) x1) e
  have h28 := Cert.Basis.gather_flat_apply (N := 100000) (T := 1700000) (by norm_num)
    Cert.ReferenceIdeal.Facts₀.gather_S100000_S1700000x1_S1700000_n_0_n_n_0_1_1_wf
    (Cert.ReferenceIdeal.ReadP.val_main_v14 (F := Ideal) x1) (Cert.ReferenceIdeal.ReadP.val_main_v27 (F := Ideal) x1) e
  obtain ⟨a, ha⟩ := dinv_real x1 (ix1 ⟨min ((Cert.ReferenceIdeal.ReadP.val_main_v20 (F := Ideal) x1) (ix2 e (0 : Fin 1))).toInt.toNat (100000 - 1), by omega⟩)
  obtain ⟨b, hb⟩ := dinv_real x1 (ix1 ⟨min ((Cert.ReferenceIdeal.ReadP.val_main_v27 (F := Ideal) x1) (ix2 e (0 : Fin 1))).toInt.toNat (100000 - 1), by omega⟩)
  rw [ha] at h21
  rw [hb] at h28
  refine ⟨a * b, ?_⟩
  rw [EReal.coe_mul]
  exact congrArg₂ (· * ·) h21 h28

end Cert.Finite

end
-- ==== Proof.RefValue.lean ====
/-
  The reference's result, read at one entry (n, o), is the layer's formula. The gate is the softmax over the three
  experts of the logits (gate features of node n, dotted with the gate matrix, divided by the temperature): the row
  maximum is the fold of max from −∞ over the three logits, taken once more against −∞; each logit is shifted by it and
  exponentiated, and divided by the sum of the three exponentials added to zero. Bias row e and gate column e are
  broadcast to the entry; the rectifier is the maximum with zero; and the three gate-weighted rectified terms are added
  to zero in expert order. Each expert's aggregated map stays as the reference computes it.
-/
import proofs.«171982_j7086696038965_1_alg».proof.Proof.RefRead
import proofs.«171982_j7086696038965_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.ValueIdx
open Cert.ReferenceIdeal.ReadP

/-- The logits of node n, as the specification spells them. -/
abbrev logits (x2 : FVec Ideal S100000x4 .f32) (x5 : FVec Ideal S4x3 .f32) (n : Fin 100000) : Fin 3 → EReal :=
  Cert.Spec.logit (fun k => x2 (ix2 n k)) (fun k j => x5 (ix2 k j))

/-- The scaled logit: the four-term dot product divided by the temperature. -/
theorem logit_apply (x2 : FVec Ideal S100000x4 .f32) (x5 : FVec Ideal S4x3 .f32) (n : Fin 100000) (j : Fin 3) :
    val_main_v32 (F := Ideal) x2 x5 (ix2 n j) = logits x2 x5 n j := by
  rw [val_main_v32_apply, val_main_v30_apply, val_main_v31_apply, val_main_cst_6_apply]
  show Ideal.div (∑ k : Fin 4, x2 (lidx_main_v30 (ix2 n j) k) * x5 (ridx_main_v30 (ix2 n j) k)) (Ideal.ofBits .f32 0x42CA0000#32)
    = Ideal.div (∑ k : Fin 4, x2 (ix2 n k) * x5 (ix2 k j)) (Ideal.ofBits .f32 0x42CA0000#32)
  refine congrArg (Ideal.div · _) (Finset.sum_congr rfl fun k _ => ?_)
  have el : lidx_main_v30 (ix2 n j) k = ix2 n k := funext fun a => by
    match a with | ⟨0, _⟩ => rfl | ⟨1, _⟩ => rfl
  have er : ridx_main_v30 (ix2 n j) k = ix2 k j := funext fun a => by
    match a with | ⟨0, _⟩ => rfl | ⟨1, _⟩ => rfl
  rw [el, er]

/-- The row maximum: the fold of max from −∞ over the three logits, then once more the maximum with −∞. -/
theorem rowMax_apply (x2 : FVec Ideal S100000x4 .f32) (x5 : FVec Ideal S4x3 .f32) (n : Fin 100000) :
    val_main_v35 (F := Ideal) x2 x5 (ix1 n) = Cert.Spec.rowMax (logits x2 x5 n) := by
  have h : S100000x3.Reduces [1] S100000 := by decide
  rw [val_main_v35_apply, val_main_v34_apply, val_main_cst_8_apply]
  unfold val_main_v33
  rw [Host.reduce_eq_fold_single FloatOps.maximumf _ _ reducesTo_S100000x3_S100000_d1 h h_S_, val_main_cst_7_apply]
  have e : (val_main_v32 (F := Ideal) x2 x5 ∘ h.lift (ix1 n)) = logits x2 x5 n := funext fun (k : Fin 3) => by
    have ek : h.lift (ix1 n) k = ix2 n k := funext fun a => Fin.ext (by
      match a with | ⟨0, _⟩ => rfl | ⟨1, _⟩ => rfl)
    show val_main_v32 (F := Ideal) x2 x5 (h.lift (ix1 n) k) = _
    rw [ek]
    exact logit_apply x2 x5 n k
  rw [e]
  rfl

/-- The subtracted maximum, broadcast back over the three columns. -/
theorem rowMax_bcast_apply (x2 : FVec Ideal S100000x4 .f32) (x5 : FVec Ideal S4x3 .f32) (n : Fin 100000) (j : Fin 3) :
    val_main_v37 (F := Ideal) x2 x5 (ix2 n j) = Cert.Spec.rowMax (logits x2 x5 n) := by
  rw [val_main_v37_apply, val_main_v36_apply]
  have e : idx_main_v36 (idx_main_v37 (ix2 n j)) = ix1 n := funext fun a => by
    match a with | ⟨0, _⟩ => rfl
  rw [e, rowMax_apply]

/-- The exponential of the shifted logit. -/
theorem exp_apply (x2 : FVec Ideal S100000x4 .f32) (x5 : FVec Ideal S4x3 .f32) (n : Fin 100000) (j : Fin 3) :
    val_main_v39 (F := Ideal) x2 x5 (ix2 n j) = Ideal.exp (logits x2 x5 n j - Cert.Spec.rowMax (logits x2 x5 n)) := by
  rw [val_main_v39_apply, val_main_v38_apply, logit_apply, rowMax_bcast_apply]
  rfl

/-- The row sum of the three exponentials, added to zero. -/
theorem sum_apply (x2 : FVec Ideal S100000x4 .f32) (x5 : FVec Ideal S4x3 .f32) (n : Fin 100000) :
    val_main_v40 (F := Ideal) x2 x5 (ix1 n) = ∑ k : Fin 3, Ideal.exp (logits x2 x5 n k - Cert.Spec.rowMax (logits x2 x5 n)) := by
  rw [val_main_v40_apply, val_main_cst_9_apply, Ideal.ofBits_def, Ideal.ofBits_zero_f32, zero_add]
  refine Finset.sum_congr rfl fun k _ => ?_
  have e : idx_main_v40 (ix1 n) k = ix2 n k := funext fun a => by
    match a with | ⟨0, _⟩ => rfl | ⟨1, _⟩ => rfl
  rw [e, exp_apply]

/-- The softmax gate of node n, expert j. -/
theorem gate_apply (x2 : FVec Ideal S100000x4 .f32) (x5 : FVec Ideal S4x3 .f32) (n : Fin 100000) (j : Fin 3) :
    val_main_v43 (F := Ideal) x2 x5 (ix2 n j) = Cert.Spec.gate (logits x2 x5 n) j := by
  rw [val_main_v43_apply, val_main_v42_apply, val_main_v41_apply, exp_apply]
  have e : idx_main_v41 (idx_main_v42 (ix2 n j)) = ix1 n := funext fun a => by
    match a with | ⟨0, _⟩ => rfl
  rw [e, sum_apply]
  rfl

/-- Bias row 0, broadcast over the nodes. -/
theorem bias0_apply (x4 : FVec Ideal S3x64 .f32) (n : Fin 100000) (o : Fin 64) :
    val_main_v64 (F := Ideal) x4 (ix2 n o) = x4 (ix2 0 o) := by
  rw [val_main_v64_apply, val_main_v63_apply, val_main_v62_apply, val_main_v61_apply]
  refine congrArg x4 (funext fun a => Fin.ext ?_)
  match a with
  | ⟨0, _⟩ => rfl
  | ⟨1, _⟩ => exact Nat.mod_eq_of_lt o.isLt

/-- Bias row 1, broadcast over the nodes. -/
theorem bias1_apply (x4 : FVec Ideal S3x64 .f32) (n : Fin 100000) (o : Fin 64) :
    val_main_v90 (F := Ideal) x4 (ix2 n o) = x4 (ix2 1 o) := by
  rw [val_main_v90_apply, val_main_v89_apply, val_main_v88_apply, val_main_v87_apply]
  refine congrArg x4 (funext fun a => Fin.ext ?_)
  match a with
  | ⟨0, _⟩ => rfl
  | ⟨1, _⟩ => exact Nat.mod_eq_of_lt o.isLt

/-- Bias row 2, broadcast over the nodes. -/
theorem bias2_apply (x4 : FVec Ideal S3x64 .f32) (n : Fin 100000) (o : Fin 64) :
    val_main_v116 (F := Ideal) x4 (ix2 n o) = x4 (ix2 2 o) := by
  rw [val_main_v116_apply, val_main_v115_apply, val_main_v114_apply, val_main_v113_apply]
  refine congrArg x4 (funext fun a => Fin.ext ?_)
  match a with
  | ⟨0, _⟩ => rfl
  | ⟨1, _⟩ => exact Nat.mod_eq_of_lt o.isLt

/-- Gate column 0, broadcast over the output columns. -/
theorem gcol0_apply (x2 : FVec Ideal S100000x4 .f32) (x5 : FVec Ideal S4x3 .f32) (n : Fin 100000) (o : Fin 64) :
    val_main_v68 (F := Ideal) x2 x5 (ix2 n o) = Cert.Spec.gate (logits x2 x5 n) 0 := by
  rw [val_main_v68_apply, val_main_v66_apply]
  have e : idx_main_v66 (idx_main_v68 (ix2 n o)) = ix2 n 0 := funext fun a => by
    match a with | ⟨0, _⟩ => rfl | ⟨1, _⟩ => rfl
  rw [e, gate_apply]

/-- Gate column 1, broadcast over the output columns. -/
theorem gcol1_apply (x2 : FVec Ideal S100000x4 .f32) (x5 : FVec Ideal S4x3 .f32) (n : Fin 100000) (o : Fin 64) :
    val_main_v94 (F := Ideal) x2 x5 (ix2 n o) = Cert.Spec.gate (logits x2 x5 n) 1 := by
  rw [val_main_v94_apply, val_main_v92_apply]
  have e : idx_main_v92 (idx_main_v94 (ix2 n o)) = ix2 n 1 := funext fun a => by
    match a with | ⟨0, _⟩ => rfl | ⟨1, _⟩ => rfl
  rw [e, gate_apply]

/-- Gate column 2, broadcast over the output columns. -/
theorem gcol2_apply (x2 : FVec Ideal S100000x4 .f32) (x5 : FVec Ideal S4x3 .f32) (n : Fin 100000) (o : Fin 64) :
    val_main_v120 (F := Ideal) x2 x5 (ix2 n o) = Cert.Spec.gate (logits x2 x5 n) 2 := by
  rw [val_main_v120_apply, val_main_v118_apply]
  have e : idx_main_v118 (idx_main_v120 (ix2 n o)) = ix2 n 2 := funext fun a => by
    match a with | ⟨0, _⟩ => rfl | ⟨1, _⟩ => rfl
  rw [e, gate_apply]

/-- The zero array: every entry is the real number zero. -/
theorem zeros_apply (i : S100000x64.Idx) : val_main_v44 (F := Ideal) i = (0 : EReal) := by
  rw [val_main_v44_apply, val_main_cst_10_apply, Ideal.ofBits_def, Ideal.ofBits_zero_f32]

/-- The rectifier's zero operand (expert 0). -/
theorem relu_zero0_apply (i : S100000x64.Idx) : val_main_call1_v0 (F := Ideal) i = (0 : EReal) := by
  rw [val_main_call1_v0_apply, val_main_call1_cst_apply, Ideal.ofBits_def, Ideal.ofBits_zero_f32]

/-- The rectifier's zero operand (expert 1). -/
theorem relu_zero1_apply (i : S100000x64.Idx) : val_main_call2_v0 (F := Ideal) i = (0 : EReal) := by
  rw [val_main_call2_v0_apply, val_main_call2_cst_apply, Ideal.ofBits_def, Ideal.ofBits_zero_f32]

/-- The rectifier's zero operand (expert 2). -/
theorem relu_zero2_apply (i : S100000x64.Idx) : val_main_call3_v0 (F := Ideal) i = (0 : EReal) := by
  rw [val_main_call3_v0_apply, val_main_call3_cst_apply, Ideal.ofBits_def, Ideal.ofBits_zero_f32]

/-- The accumulation spelled out on a three-entry vector of aggregated values. -/
theorem combine_vec (g b : Fin 3 → EReal) (a0 a1 a2 : EReal) :
    Cert.Spec.combine g ![a0, a1, a2] b
      = ((0 + g 0 * max (a0 + b 0) 0) + g 1 * max (a1 + b 1) 0) + g 2 * max (a2 + b 2) 0 := by
  unfold Cert.Spec.combine
  rw [Matrix.cons_val_zero, Matrix.cons_val_one, Matrix.cons_val_two]
  rfl

/-- The reference's result at node n, column o: the layer's formula, with each expert's aggregated map left as the
    reference computes it (the accumulating scatter of the gathered, scaled rows of x · W[e]). -/
theorem out_apply (x0 : FVec Ideal S100000x64 .f32) (x1 : IVec S2x1600000 32) (x2 : FVec Ideal S100000x4 .f32)
    (x3 : FVec Ideal S3x64x64 .f32) (x4 : FVec Ideal S3x64 .f32) (x5 : FVec Ideal S4x3 .f32) (n : Fin 100000) (o : Fin 64) :
    val_main_v122 (F := Ideal) x0 x1 x2 x3 x4 x5 (ix2 n o)
      = Cert.Spec.combine (Cert.Spec.gate (Cert.Spec.logit (fun k => x2 (ix2 n k)) (fun k j => x5 (ix2 k j))))
          ![val_main_v60 (F := Ideal) x0 x1 x3 (ix2 n o), val_main_v86 (F := Ideal) x0 x1 x3 (ix2 n o),
            val_main_v112 (F := Ideal) x0 x1 x3 (ix2 n o)]
          (fun e => x4 (ix2 e o)) := by
  rw [val_main_v122_apply, val_main_v96_apply, val_main_v70_apply, val_main_v121_apply, val_main_v95_apply,
    val_main_v69_apply, val_main_v119_apply, val_main_v93_apply, val_main_v67_apply, val_main_v117_apply,
    val_main_v91_apply, val_main_v65_apply, zeros_apply, gcol0_apply, gcol1_apply, gcol2_apply, bias0_apply,
    bias1_apply, bias2_apply, relu_zero0_apply, relu_zero1_apply, relu_zero2_apply]
  generalize val_main_v60 (F := Ideal) x0 x1 x3 (ix2 n o) = a0
  generalize val_main_v86 (F := Ideal) x0 x1 x3 (ix2 n o) = a1
  generalize val_main_v112 (F := Ideal) x0 x1 x3 (ix2 n o) = a2
  rw [combine_vec]
  simp only [Ideal.addf_def, Ideal.mulf_def, Ideal.maximumf_def]

end Cert.ReferenceIdeal.RefValue

end
-- ==== Proof.LibScatters.lean ====
/-
  An accumulating scatter along the leading axis, read at an index.

  `x.at[i].add(u)` for a table `x` of N rows of D entries, a column of T index words `i` and T update rows `u` of D
  entries is a StableHLO scatter whose one-word index vector names the operand's first axis (inserted, so the window
  has no coordinate there) and whose window is a whole row. Update entry (e, o') lands at table entry (i[e], o'), the
  word read as a signed integer and NOT clamped: an update whose word is negative or past the last row is dropped.
  So at the exact values entry (n, o) of the result is the table's entry plus the sum of the entries (e, o) of the
  update rows e whose word is n.
-/
import Idealize.ShloMosaic.PureOps
import Idealize.ShloMosaic.PureOps.Ideal
import Idealize.ShloMosaic.Lib.ValueIdx

noncomputable section

namespace Cert.Basis

open Idealize.ShloMosaic Idealize.ShloMosaic.ValueIdx

/-- The dimension numbers of `x.at[i].add(u)` for a table of N rows of D entries, T index words in a column, and T
    update rows of D entries: update row e is added to the table row its index word names. -/
abbrev rowsScatterDims (N D T : Nat)
    (wf : ScatterDims.WF ⟨2, ![N, D]⟩ ⟨2, ![T, 1]⟩ ⟨2, ![T, D]⟩ [1] [0] [0] 1) :
    ScatterDims ⟨2, ![N, D]⟩ ⟨2, ![T, 1]⟩ ⟨2, ![T, D]⟩ where
  updateWindowDims := [1]
  insertedWindowDims := [0]
  scatterDimsToOperandDims := [0]
  indexVectorDim := 1
  wf := wf

/-- An operand axis is kept (a window axis of the update goes to it) exactly when it is not an inserted axis. -/
private theorem scat_mem_sKept {s si u : Shape} (d : ScatterDims s si u) (a : Fin s.rank) :
    a ∈ d.sKept ↔ a ∉ d.insertedWindowDims := by
  simp [ScatterDims.sKept, Shape.kept, List.mem_filter, List.mem_finRange]

/-- Axis 0 of the landing index: named by the index vector, so its start is the index word read at (e, 0) as a signed
    integer; it is an inserted axis, so the window has no coordinate there. -/
private theorem scat_coord0 {N D T : Nat}
    (wf : ScatterDims.WF ⟨2, ![N, D]⟩ ⟨2, ![T, 1]⟩ ⟨2, ![T, D]⟩ [1] [0] [0] 1)
    (idx : IVec ⟨2, ![T, 1]⟩ 32) (e : Fin T) (o' : Fin D) :
    (rowsScatterDims N D T wf).start (ix2 e o') idx (0 : Fin 2)
      + ((rowsScatterDims N D T wf).window (ix2 e o') (0 : Fin 2) : Int) = (idx (ix2 e (0 : Fin 1))).toInt := by
  have hw : (rowsScatterDims N D T wf).window (ix2 e o') (0 : Fin 2) = 0 := by
    unfold ScatterDims.window
    exact dif_neg (fun h => (scat_mem_sKept _ _).mp h (List.mem_singleton.mpr rfl))
  rw [hw]
  unfold ScatterDims.start
  rw [dif_pos (show (0 : Fin 2) ∈ (rowsScatterDims N D T wf).scatterDimsToOperandDims from List.mem_singleton.mpr rfl)]
  -- the word is read at (e, 0): e on the batch axis, 0 on the index vector's axis
  have hsi : (rowsScatterDims N D T wf).siIdx (ix2 e o') ⟨List.idxOf (0 : Fin 2) (rowsScatterDims N D T wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  simp

/-- Axis 1 of the landing index: not named by the index vector (start 0) and the one kept axis, which the one window
    axis of the update reads: it is the update's column. -/
private theorem scat_coord1 {N D T : Nat}
    (wf : ScatterDims.WF ⟨2, ![N, D]⟩ ⟨2, ![T, 1]⟩ ⟨2, ![T, D]⟩ [1] [0] [0] 1)
    (idx : IVec ⟨2, ![T, 1]⟩ 32) (e : Fin T) (o' : Fin D) :
    (rowsScatterDims N D T wf).start (ix2 e o') idx (1 : Fin 2)
      + ((rowsScatterDims N D T wf).window (ix2 e o') (1 : Fin 2) : Int) = (o'.val : Int) := by
  have hm : (1 : Fin 2) ∉ [(0 : Fin 2)] := by decide
  have hs : (rowsScatterDims N D T wf).start (ix2 e o') idx (1 : Fin 2) = 0 := by
    unfold ScatterDims.start
    exact dif_neg hm
  have hw : (rowsScatterDims N D T wf).window (ix2 e o') (1 : Fin 2) = o'.val := by
    unfold ScatterDims.window
    rw [dif_pos ((scat_mem_sKept _ _).mpr hm)]
    rfl
  rw [hs, hw, Int.zero_add]

/-- Update entry (e, o') lands on table entry (n, o) exactly when e's index word is n and the columns agree: the
    in-range test holds of itself then, since n is a row and o' a column of the table. -/
theorem resultIdx?_rows_eq_some_iff {N D T : Nat}
    (wf : ScatterDims.WF ⟨2, ![N, D]⟩ ⟨2, ![T, 1]⟩ ⟨2, ![T, D]⟩ [1] [0] [0] 1)
    (idx : IVec ⟨2, ![T, 1]⟩ 32) (e : Fin T) (o' : Fin D) (n : Fin N) (o : Fin D) :
    (rowsScatterDims N D T wf).resultIdx? (ix2 e o') idx = some (ix2 n o)
      ↔ (idx (ix2 e (0 : Fin 1))).toInt = (n.val : Int) ∧ o' = o := by
  have h0 := scat_coord0 wf idx e o'
  have h1 := scat_coord1 wf idx e o'
  unfold ScatterDims.resultIdx?
  split
  · rename_i h
    rw [Option.some.injEq]
    constructor
    · intro hf
      have e0 := congrArg Fin.val (congrFun hf (0 : Fin 2))
      have e1 := congrArg Fin.val (congrFun hf (1 : Fin 2))
      have p0 := (h (0 : Fin 2)).1
      simp only [h0] at e0 p0
      simp only [h1] at e1
      refine ⟨?_, Fin.ext ?_⟩
      · have : ((idx (ix2 e (0 : Fin 1))).toInt.toNat : Int) = (n.val : Int) := congrArg Int.ofNat e0
        omega
      · have : (o'.val : Int).toNat = o.val := e1
        omega
    · rintro ⟨hn, rfl⟩
      funext a
      refine Fin.ext ?_
      match a with
      | ⟨0, _⟩ =>
        show ((rowsScatterDims N D T wf).start (ix2 e o') idx (0 : Fin 2)
          + ((rowsScatterDims N D T wf).window (ix2 e o') (0 : Fin 2) : Int)).toNat = n.val
        rw [h0, hn]; rfl
      | ⟨1, _⟩ =>
        show ((rowsScatterDims N D T wf).start (ix2 e o') idx (1 : Fin 2)
          + ((rowsScatterDims N D T wf).window (ix2 e o') (1 : Fin 2) : Int)).toNat = o'.val
        rw [h1]; rfl
  · rename_i h
    constructor
    · intro hf; exact absurd hf (by simp)
    · rintro ⟨hn, rfl⟩
      exfalso
      apply h
      intro a
      match a with
      | ⟨0, _⟩ =>
        show 0 ≤ (rowsScatterDims N D T wf).start (ix2 e o') idx (0 : Fin 2)
            + ((rowsScatterDims N D T wf).window (ix2 e o') (0 : Fin 2) : Int)
          ∧ (rowsScatterDims N D T wf).start (ix2 e o') idx (0 : Fin 2)
            + ((rowsScatterDims N D T wf).window (ix2 e o') (0 : Fin 2) : Int) < (N : Int)
        rw [h0, hn]
        have := n.isLt
        omega
      | ⟨1, _⟩ =>
        show 0 ≤ (rowsScatterDims N D T wf).start (ix2 e o') idx (1 : Fin 2)
            + ((rowsScatterDims N D T wf).window (ix2 e o') (1 : Fin 2) : Int)
          ∧ (rowsScatterDims N D T wf).start (ix2 e o') idx (1 : Fin 2)
            + ((rowsScatterDims N D T wf).window (ix2 e o') (1 : Fin 2) : Int) < (D : Int)
        rw [h1]
        have := o'.isLt
        omega

/-- At the exact values, entry (n, o) of the accumulating scatter is the table's entry plus the sum, over the update rows
    e whose index word read as a signed integer is n, of the update's entry (e, o). -/
theorem scatterAdd_rows_apply {N D T : Nat}
    (wf : ScatterDims.WF ⟨2, ![N, D]⟩ ⟨2, ![T, 1]⟩ ⟨2, ![T, D]⟩ [1] [0] [0] 1)
    (x : (⟨2, ![N, D]⟩ : Shape).Idx → EReal) (idx : IVec ⟨2, ![T, 1]⟩ 32) (upd : (⟨2, ![T, D]⟩ : Shape).Idx → EReal)
    (n : Fin N) (o : Fin D) :
    Host.scatterAdd (F := Ideal) (φ := .f32) (rowsScatterDims N D T wf) x idx upd (ix2 n o)
      = x (ix2 n o) + ∑ e ∈ Finset.univ.filter (fun e : Fin T => (idx (ix2 e (0 : Fin 1))).toInt = (n.val : Int)),
          upd (ix2 e o) := by
  unfold Host.scatterAdd
  rw [Ideal.hostScatterAdd_def]
  unfold Ideal.hostScatterAdd
  congr 1
  -- the sum over the update entries that land on (n, o), as a double sum over update rows and columns
  rw [Finset.sum_filter, sum_idx2, Finset.sum_filter]
  refine Finset.sum_congr rfl fun e _ => ?_
  simp only [resultIdx?_rows_eq_some_iff]
  -- in row e only column o can land there, and it does exactly when e's word is n
  by_cases hn : (idx (ix2 e (0 : Fin 1))).toInt = (n.val : Int)
  · simp only [hn, true_and, if_true]
    rw [Finset.sum_ite_eq' Finset.univ o (fun o' => upd (ix2 e o'))]
    simp
  · simp only [hn, false_and, if_false]
    exact Finset.sum_const_zero

end Cert.Basis

end
-- ==== Proof.LibRowGather.lean ====
/-
  A gather of rows of a two-axis table, read at an index.

  `x[i]` for a table `x` of N rows of D entries and a column of T index words `i` is a StableHLO gather that collapses
  the operand's first axis, takes its start there from the one-word index vector, and copies the second axis whole.
  Result row t is table row `clamp(i[t])`: the word read as a signed integer, negative values to 0 (the conversion to
  a natural number), values past the end to N − 1 (the gather's own clamp of every start index).
-/
import Idealize.ShloMosaic.PureOps
import Idealize.ShloMosaic.Lib.ValueIdx

noncomputable section

namespace Cert.Basis

open Idealize.ShloMosaic Idealize.ShloMosaic.ValueIdx

variable {α : Type}

/-- The dimension numbers of `x[i]` for a table of N rows of D entries and T index words in a column. -/
abbrev rows2Dims (N D T : Nat)
    (wf : GatherDims.WF ⟨2, ![N, D]⟩ ⟨2, ![T, 1]⟩ ⟨2, ![T, D]⟩ [1] [0] [] [0] [] 1 ![1, D]) :
    GatherDims ⟨2, ![N, D]⟩ ⟨2, ![T, 1]⟩ ⟨2, ![T, D]⟩ where
  offsetDims := [1]
  collapsedSliceDims := [0]
  operandBatchingDims := []
  startIndicesBatchingDims := []
  startIndexMap := [0]
  indexVectorDim := 1
  sliceSizes := ![1, D]
  wf := wf

/-- Axis 0 of the operand index: collapsed and in the start index map, so it is the index word read at (t, 0),
    signed and clamped to N − 1, with no batching and no offset coordinate. -/
private theorem rows2_coord0 {N D T : Nat}
    (wf : GatherDims.WF ⟨2, ![N, D]⟩ ⟨2, ![T, 1]⟩ ⟨2, ![T, D]⟩ [1] [0] [] [0] [] 1 ![1, D])
    (idx : IVec ⟨2, ![T, 1]⟩ 32) (t : Fin T) (o : Fin D) :
    (rows2Dims N D T wf).start (ix2 t o) idx (0 : Fin 2) + (rows2Dims N D T wf).batchCoord (ix2 t o) (0 : Fin 2)
      + (rows2Dims N D T wf).offCoord (ix2 t o) (0 : Fin 2)
      = min (idx (ix2 t (0 : Fin 1))).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rows2Dims N D T wf).startIndexMap from List.mem_singleton.mpr rfl)]
  -- the word is read at (t, 0): t on the batch axis, 0 on the index vector's axis
  have hsi : (rows2Dims N D T wf).siIdx (ix2 t o) ⟨List.idxOf (0 : Fin 2) (rows2Dims N D T wf).startIndexMap,
      List.idxOf_lt_length_iff.2 (List.mem_singleton.mpr rfl)⟩ = ix2 t (0 : Fin 1) := by
    funext e; refine Fin.ext ?_
    match e with
    | ⟨0, _⟩ => rfl
    | ⟨1, _⟩ => rfl
  rw [hsi]
  rfl

/-- Axis 1 of the operand index: not in the start index map (start 0), not a batching axis, and the one kept axis,
    which the one offset axis reads: it is result coordinate 1. -/
private theorem rows2_coord1 {N D T : Nat}
    (wf : GatherDims.WF ⟨2, ![N, D]⟩ ⟨2, ![T, 1]⟩ ⟨2, ![T, D]⟩ [1] [0] [] [0] [] 1 ![1, D])
    (idx : IVec ⟨2, ![T, 1]⟩ 32) (t : Fin T) (o : Fin D) :
    (rows2Dims N D T wf).start (ix2 t o) idx (1 : Fin 2) + (rows2Dims N D T wf).batchCoord (ix2 t o) (1 : Fin 2)
      + (rows2Dims N D T wf).offCoord (ix2 t o) (1 : Fin 2) = o.val := by
  have hm : (1 : Fin 2) ∉ [(0 : Fin 2)] := by decide
  rw [GatherDims.batchCoord_eq_zero _ _ _ List.not_mem_nil, Nat.add_zero]
  have hs : (rows2Dims N D T wf).start (ix2 t o) idx (1 : Fin 2) = 0 := by
    unfold GatherDims.start
    exact dif_neg hm
  have ho : (rows2Dims N D T wf).offCoord (ix2 t o) (1 : Fin 2) = o.val := by
    unfold GatherDims.offCoord
    rw [dif_pos ((GatherDims.mem_sKept _ _).mpr ⟨hm, List.not_mem_nil⟩)]
    rfl
  rw [hs, ho, Nat.zero_add]

/-- Result entry (t, o) is entry o of the table's row at t's index word, read signed and clamped into [0, N − 1]. -/
theorem gather_rows2_apply {N D T : Nat} (hN : 0 < N)
    (wf : GatherDims.WF ⟨2, ![N, D]⟩ ⟨2, ![T, 1]⟩ ⟨2, ![T, D]⟩ [1] [0] [] [0] [] 1 ![1, D])
    (x : (⟨2, ![N, D]⟩ : Shape).Idx → α) (idx : IVec ⟨2, ![T, 1]⟩ 32) (t : Fin T) (o : Fin D) :
    Host.gather (rows2Dims N D T wf) x idx (ix2 t o)
      = x (ix2 ⟨min (idx (ix2 t (0 : Fin 1))).toInt.toNat (N - 1), by omega⟩ o) := by
  unfold Host.gather
  congr 1
  -- the operand index agrees with (clamped word, o) axis by axis
  funext c
  refine Fin.ext ?_
  match c with
  | ⟨0, _⟩ => exact rows2_coord0 wf idx t o
  | ⟨1, _⟩ => exact rows2_coord1 wf idx t o

end Cert.Basis

end
-- ==== Proof.AggLaw.lean ====
/-
  Aggregation commutes with a linear map.

  Summing scaled rows and then applying a matrix equals applying the matrix to each row, scaling, and then summing:
  Σ_e (Σ_d X[e,d] · W[d]) · c[e] = Σ_d (Σ_e c[e] · X[e,d]) · W[d]. On the extended reals this needs every entry to be a
  real number (distributivity fails at the infinities); with real entries both sides are the same real double sum.
-/
import Idealize.ShloMosaic.PureOps.Ideal

noncomputable section

namespace Cert.AggLaw

/-- The embedding of the reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Real entries: scale-and-sum the rows, then contract with a column of the matrix, or contract each row first. -/
theorem sum_rows_matmul {E D : Type} [Fintype D] (A : Finset E) (c : E → EReal) (X : E → D → EReal) (W : D → EReal)
    (hc : ∀ e, ∃ r : ℝ, c e = (r : EReal)) (hX : ∀ e d, ∃ r : ℝ, X e d = (r : EReal))
    (hW : ∀ d, ∃ r : ℝ, W d = (r : EReal)) :
    ∑ e ∈ A, (∑ d, X e d * W d) * c e = ∑ d, (∑ e ∈ A, c e * X e d) * W d := by
  choose cr hcr using hc
  choose Xr hXr using hX
  choose Wr hWr using hW
  have hl : ∀ e, (∑ d, X e d * W d) * c e = (((∑ d, Xr e d * Wr d) * cr e : ℝ) : EReal) := by
    intro e
    rw [hcr e, EReal.coe_mul, coe_sum]
    congr 1
    exact Finset.sum_congr rfl fun d _ => by rw [hXr e d, hWr d, EReal.coe_mul]
  have hr : ∀ d, (∑ e ∈ A, c e * X e d) * W d = (((∑ e ∈ A, cr e * Xr e d) * Wr d : ℝ) : EReal) := by
    intro d
    rw [hWr d, EReal.coe_mul, coe_sum]
    congr 1
    exact Finset.sum_congr rfl fun e _ => by rw [hXr e d, hcr e, EReal.coe_mul]
  rw [Finset.sum_congr rfl fun e _ => hl e, Finset.sum_congr rfl fun d _ => hr d, ← coe_sum, ← coe_sum]
  congr 1
  simp only [Finset.sum_mul]
  rw [Finset.sum_comm]
  exact Finset.sum_congr rfl fun d _ => Finset.sum_congr rfl fun e _ => by ring

end Cert.AggLaw

end
-- ==== Proof.Bridge.lean ====
/-
  Each expert's aggregated linear map is the aggregated features times the expert's matrix.

  The reference multiplies x by W[e] first, gathers the rows of the product along the edges' row indices, scales them by
  the edge weights and sums them per node along the column indices. The kernel gathers, scales and sums the rows of x
  itself and multiplies by W[e] afterwards. Gathering picks the same row on both sides, the per-node edge sets are the
  same, and the two double sums agree because every entry of x, of W and every edge weight is a real number.
-/
import proofs.«171982_j7086696038965_1_alg».proof.Proof.RefRead
import proofs.«171982_j7086696038965_1_alg».proof.Proof.HostPrefix
import proofs.«171982_j7086696038965_1_alg».proof.Proof.LibScatters
import proofs.«171982_j7086696038965_1_alg».proof.Proof.LibRowGather
import proofs.«171982_j7086696038965_1_alg».proof.Proof.AggLaw
import Idealize.ShloMosaic.Lib.ValueIdx
import Idealize.ShloMosaic.PureOps.Ideal.Laws

noncomputable section

namespace Cert.Bridge

open Idealize.ShloMosaic Idealize.ShloMosaic.ValueIdx
open Cert.ReferenceIdeal Cert.ReferenceIdeal.Gen Cert.ReferenceIdeal.ReadP

/-- The table row an edge's gather reads: its index word as a signed integer, clamped into [0, 99999]. -/
def rowOf (idxr : IVec S1700000x1 32) (e : Fin 1700000) : Fin 100000 :=
  ⟨min (idxr (ix2 e (0 : Fin 1))).toInt.toNat (100000 - 1), by omega⟩

/-- The row gather of the program read at an entry. -/
theorem gather_apply (x : FVec Ideal S100000x64 .f32) (idxr : IVec S1700000x1 32) (e : Fin 1700000) (o : Fin 64) :
    Host.gather gather_S100000x64_S1700000x1_S1700000x64_1_0_n_n_0_1_164 x idxr (ix2 e o) = x (ix2 (rowOf idxr e) o) :=
  Cert.Basis.gather_rows2_apply (N := 100000) (D := 64) (T := 1700000) (by norm_num)
    gather_S100000x64_S1700000x1_S1700000x64_1_0_n_n_0_1_164.wf x idxr e o

/-- The accumulating row scatter of the program read at an entry. -/
theorem scatter_apply (z : FVec Ideal S100000x64 .f32) (idxc : IVec S1700000x1 32) (upd : FVec Ideal S1700000x64 .f32)
    (n : Fin 100000) (o : Fin 64) :
    Host.scatterAdd (F := Ideal) scatter_S100000x64_S1700000x1_S1700000x64_1_0_0_1 z idxc upd (ix2 n o)
      = z (ix2 n o) + ∑ e ∈ Finset.univ.filter (fun e : Fin 1700000 => (idxc (ix2 e (0 : Fin 1))).toInt = (n.val : Int)),
          upd (ix2 e o) :=
  Cert.Basis.scatterAdd_rows_apply (N := 100000) (D := 64) (T := 1700000)
    scatter_S100000x64_S1700000x1_S1700000x64_1_0_0_1.wf z idxc upd n o

/-- Scatter of the gathered, scaled rows of a product x · w, against the scatter of the gathered, scaled rows of x
    followed by w: equal entry by entry when x, w and the edge weights are real. -/
theorem scatter_commute (x0 xw zero : FVec Ideal S100000x64 .f32) (nb : FVec Ideal S1700000x64 .f32)
    (idxr idxc : IVec S1700000x1 32) (w : Fin 64 → Fin 64 → EReal) (nrm : Fin 1700000 → EReal)
    (hz : ∀ i, zero i = 0) (hnb : ∀ e o, nb (ix2 e o) = nrm e)
    (hxw : ∀ n o, xw (ix2 n o) = ∑ d : Fin 64, x0 (ix2 n d) * w d o)
    (hx : ∀ i, ∃ r : ℝ, x0 i = (r : EReal)) (hw : ∀ d o, ∃ r : ℝ, w d o = (r : EReal))
    (hn : ∀ e, ∃ r : ℝ, nrm e = (r : EReal)) (n : Fin 100000) (o : Fin 64) :
    Host.scatterAdd (F := Ideal) scatter_S100000x64_S1700000x1_S1700000x64_1_0_0_1 zero idxc
        (mulf (Host.gather gather_S100000x64_S1700000x1_S1700000x64_1_0_n_n_0_1_164 xw idxr) nb) (ix2 n o)
      = ∑ d : Fin 64, Host.scatterAdd (F := Ideal) scatter_S100000x64_S1700000x1_S1700000x64_1_0_0_1 zero idxc
          (mulf nb (Host.gather gather_S100000x64_S1700000x1_S1700000x64_1_0_n_n_0_1_164 x0 idxr)) (ix2 n d) * w d o := by
  have hR : ∀ d : Fin 64, Host.scatterAdd (F := Ideal) scatter_S100000x64_S1700000x1_S1700000x64_1_0_0_1 zero idxc
        (mulf nb (Host.gather gather_S100000x64_S1700000x1_S1700000x64_1_0_n_n_0_1_164 x0 idxr)) (ix2 n d)
      = ∑ e ∈ Finset.univ.filter (fun e : Fin 1700000 => (idxc (ix2 e (0 : Fin 1))).toInt = (n.val : Int)),
          nrm e * x0 (ix2 (rowOf idxr e) d) := by
    intro d
    rw [scatter_apply, hz, zero_add]
    refine Finset.sum_congr rfl fun e _ => ?_
    show nb (ix2 e d) * Host.gather gather_S100000x64_S1700000x1_S1700000x64_1_0_n_n_0_1_164 x0 idxr (ix2 e d) = _
    rw [hnb, gather_apply]
  have hL : ∀ e : Fin 1700000,
      mulf (Host.gather gather_S100000x64_S1700000x1_S1700000x64_1_0_n_n_0_1_164 xw idxr) nb (ix2 e o)
        = (∑ d : Fin 64, x0 (ix2 (rowOf idxr e) d) * w d o) * nrm e := by
    intro e
    show Host.gather gather_S100000x64_S1700000x1_S1700000x64_1_0_n_n_0_1_164 xw idxr (ix2 e o) * nb (ix2 e o) = _
    rw [hnb, gather_apply, hxw]
  rw [scatter_apply, hz, zero_add, Finset.sum_congr rfl fun e _ => hL e, Finset.sum_congr rfl fun d _ => congrArg (· * w d o) (hR d)]
  exact Cert.AggLaw.sum_rows_matmul _ nrm (fun e d => x0 (ix2 (rowOf idxr e) d)) (fun d => w d o) hn (fun e d => hx _)
    (fun d => hw d o)

/-! ## The program's stages read at an entry -/

theorem zero_apply (i : S100000x64.Idx) : val_main_v58 (F := Ideal) i = 0 := by
  rw [val_main_v58_apply, val_main_cst_13_apply]
  exact Ideal.ofBits_zero_f32

theorem nb_apply (x1 : IVec S2x1600000 32) (e : Fin 1700000) (o : Fin 64) :
    val_main_v56 (F := Ideal) x1 (ix2 e o) = val_main_v29 (F := Ideal) x1 (ix1 e) := by
  rw [val_main_v56_apply, val_main_v55_apply]
  congr 1
  funext a
  refine Fin.ext ?_
  match a with
  | ⟨0, _⟩ => rfl

/-- The three experts' matrices: a slice of W at the expert, re-laid as a 64 × 64 matrix. -/
theorem w0_apply (x3 : FVec Ideal S3x64x64 .f32) (d o : Fin 64) :
    val_main_v46 (F := Ideal) x3 (ix2 d o) = x3 (ix3 (0 : Fin 3) d o) := by
  rw [val_main_v46_apply, val_main_v45_apply]
  congr 1
  funext a
  refine Fin.ext ?_
  have hd := d.isLt
  have ho := o.isLt
  match a with
  | ⟨0, _⟩ => rfl
  | ⟨1, _⟩ => show (d.val * 64 + o.val) / 64 % 64 = d.val; omega
  | ⟨2, _⟩ => show (d.val * 64 + o.val) % 64 = o.val; omega

theorem w1_apply (x3 : FVec Ideal S3x64x64 .f32) (d o : Fin 64) :
    val_main_v72 (F := Ideal) x3 (ix2 d o) = x3 (ix3 (1 : Fin 3) d o) := by
  rw [val_main_v72_apply, val_main_v71_apply]
  congr 1
  funext a
  refine Fin.ext ?_
  have hd := d.isLt
  have ho := o.isLt
  match a with
  | ⟨0, _⟩ => rfl
  | ⟨1, _⟩ => show (d.val * 64 + o.val) / 64 % 64 = d.val; omega
  | ⟨2, _⟩ => show (d.val * 64 + o.val) % 64 = o.val; omega

theorem w2_apply (x3 : FVec Ideal S3x64x64 .f32) (d o : Fin 64) :
    val_main_v98 (F := Ideal) x3 (ix2 d o) = x3 (ix3 (2 : Fin 3) d o) := by
  rw [val_main_v98_apply, val_main_v97_apply]
  congr 1
  funext a
  refine Fin.ext ?_
  have hd := d.isLt
  have ho := o.isLt
  match a with
  | ⟨0, _⟩ => rfl
  | ⟨1, _⟩ => show (d.val * 64 + o.val) / 64 % 64 = d.val; omega
  | ⟨2, _⟩ => show (d.val * 64 + o.val) % 64 = o.val; omega

theorem lidx_eq (n : Fin 100000) (o k : Fin 64) : lidx_main_v47 (ix2 n o) k = ix2 n k :=
  funext fun a => Fin.ext (by match a with | ⟨0, _⟩ => rfl | ⟨1, _⟩ => rfl)

theorem ridx_eq (n : Fin 100000) (o k : Fin 64) : ridx_main_v47 (ix2 n o) k = ix2 k o :=
  funext fun a => Fin.ext (by match a with | ⟨0, _⟩ => rfl | ⟨1, _⟩ => rfl)

/-- x · W[e] read at an entry: the sum over the 64 input channels. -/
theorem xw0_apply (x0 : FVec Ideal S100000x64 .f32) (x3 : FVec Ideal S3x64x64 .f32) (n : Fin 100000) (o : Fin 64) :
    val_main_v47 (F := Ideal) x0 x3 (ix2 n o) = ∑ d : Fin 64, x0 (ix2 n d) * x3 (ix3 (0 : Fin 3) d o) := by
  rw [val_main_v47_apply]
  exact Finset.sum_congr rfl fun k _ => by rw [lidx_eq, ridx_eq, w0_apply]

theorem xw1_apply (x0 : FVec Ideal S100000x64 .f32) (x3 : FVec Ideal S3x64x64 .f32) (n : Fin 100000) (o : Fin 64) :
    val_main_v73 (F := Ideal) x0 x3 (ix2 n o) = ∑ d : Fin 64, x0 (ix2 n d) * x3 (ix3 (1 : Fin 3) d o) := by
  rw [val_main_v73_apply]
  exact Finset.sum_congr rfl fun k _ => by
    rw [show lidx_main_v73 (ix2 n o) k = ix2 n k from lidx_eq n o k,
      show ridx_main_v73 (ix2 n o) k = ix2 k o from ridx_eq n o k, w1_apply]

theorem xw2_apply (x0 : FVec Ideal S100000x64 .f32) (x3 : FVec Ideal S3x64x64 .f32) (n : Fin 100000) (o : Fin 64) :
    val_main_v99 (F := Ideal) x0 x3 (ix2 n o) = ∑ d : Fin 64, x0 (ix2 n d) * x3 (ix3 (2 : Fin 3) d o) := by
  rw [val_main_v99_apply]
  exact Finset.sum_congr rfl fun k _ => by
    rw [show lidx_main_v99 (ix2 n o) k = ix2 n k from lidx_eq n o k,
      show ridx_main_v99 (ix2 n o) k = ix2 k o from ridx_eq n o k, w2_apply]

/-! ## The three experts -/

section
variable (x0 : FVec Ideal S100000x64 .f32) (x1 : IVec S2x1600000 32) (x3 : FVec Ideal S3x64x64 .f32)
  (hx : ∀ i, ∃ r : ℝ, x0 i = (r : EReal)) (hw : ∀ i, ∃ r : ℝ, x3 i = (r : EReal))
  (hn : ∀ e : Fin 1700000, ∃ r : ℝ, val_main_v29 (F := Ideal) x1 (ix1 e) = (r : EReal))
include hx hw hn

theorem expert0 (n : Fin 100000) (o : Fin 64) :
    val_main_v60 (F := Ideal) x0 x1 x3 (ix2 n o)
      = ∑ d : Fin 64, Cert.HostPrefix.agg (F := Ideal) x0 x1 (ix2 n d) * x3 (ix3 (0 : Fin 3) d o) := by
  have h := scatter_commute x0 (val_main_v47 (F := Ideal) x0 x3) (val_main_v58 (F := Ideal)) (val_main_v56 (F := Ideal) x1)
    (val_main_v53 (F := Ideal) x1) (val_main_v59 (F := Ideal) x1)
    (fun d o => x3 (ix3 (0 : Fin 3) d o)) (fun e => val_main_v29 (F := Ideal) x1 (ix1 e)) zero_apply (nb_apply x1) (xw0_apply x0 x3) hx
    (fun d o => hw (ix3 (0 : Fin 3) d o)) hn n o
  unfold val_main_v60 val_main_v57 val_main_v54
  unfold Cert.HostPrefix.agg
  exact h

theorem expert1 (n : Fin 100000) (o : Fin 64) :
    val_main_v86 (F := Ideal) x0 x1 x3 (ix2 n o)
      = ∑ d : Fin 64, Cert.HostPrefix.agg (F := Ideal) x0 x1 (ix2 n d) * x3 (ix3 (1 : Fin 3) d o) := by
  have h := scatter_commute x0 (val_main_v73 (F := Ideal) x0 x3) (val_main_v58 (F := Ideal)) (val_main_v56 (F := Ideal) x1)
    (val_main_v53 (F := Ideal) x1) (val_main_v59 (F := Ideal) x1)
    (fun d o => x3 (ix3 (1 : Fin 3) d o)) (fun e => val_main_v29 (F := Ideal) x1 (ix1 e)) zero_apply (nb_apply x1) (xw1_apply x0 x3) hx
    (fun d o => hw (ix3 (1 : Fin 3) d o)) hn n o
  unfold val_main_v86 val_main_v83 val_main_v80
  unfold Cert.HostPrefix.agg
  exact h

theorem expert2 (n : Fin 100000) (o : Fin 64) :
    val_main_v112 (F := Ideal) x0 x1 x3 (ix2 n o)
      = ∑ d : Fin 64, Cert.HostPrefix.agg (F := Ideal) x0 x1 (ix2 n d) * x3 (ix3 (2 : Fin 3) d o) := by
  have h := scatter_commute x0 (val_main_v99 (F := Ideal) x0 x3) (val_main_v58 (F := Ideal)) (val_main_v56 (F := Ideal) x1)
    (val_main_v53 (F := Ideal) x1) (val_main_v59 (F := Ideal) x1)
    (fun d o => x3 (ix3 (2 : Fin 3) d o)) (fun e => val_main_v29 (F := Ideal) x1 (ix1 e)) zero_apply (nb_apply x1) (xw2_apply x0 x3) hx
    (fun d o => hw (ix3 (2 : Fin 3) d o)) hn n o
  unfold val_main_v112 val_main_v109 val_main_v106
  unfold Cert.HostPrefix.agg
  exact h

end

end Cert.Bridge

end
-- ==== Proof.Result.lean ====
/-
  The reference's result is the layer's formula of the aggregated features.

  Entry by entry the reference's result is the gate-weighted sum of the rectified experts, each expert's aggregated map
  being the aggregated features times the expert's matrix when x, W and the edge weights are real.
-/
import proofs.«171982_j7086696038965_1_alg».proof.Proof.RefValue
import proofs.«171982_j7086696038965_1_alg».proof.Proof.Bridge
import proofs.«171982_j7086696038965_1_alg».proof.Proof.Spec

noncomputable section

namespace Cert.Result

open Idealize.ShloMosaic Idealize.ShloMosaic.ValueIdx
open Cert.ReferenceIdeal Cert.ReferenceIdeal.Gen Cert.ReferenceIdeal.ReadP

/-- The formula at entry (n, o). -/
theorem G_apply (agg : (⟨2, ![100000, 64]⟩ : Shape).Idx → EReal) (gf : (⟨2, ![100000, 4]⟩ : Shape).Idx → EReal)
    (W : (⟨3, ![3, 64, 64]⟩ : Shape).Idx → EReal) (b : (⟨2, ![3, 64]⟩ : Shape).Idx → EReal)
    (wg : (⟨2, ![4, 3]⟩ : Shape).Idx → EReal) (n : Fin 100000) (o : Fin 64) :
    Cert.Spec.G agg gf W b wg (ix2 n o)
      = Cert.Spec.combine (Cert.Spec.gate (Cert.Spec.logit (fun k => gf (ix2 n k)) (fun k j => wg (ix2 k j))))
          (fun e => ∑ d : Fin 64, agg (ix2 n d) * W (ix3 e d o)) (fun e => b (ix2 e o)) := rfl

/-- The weighted sum reads its experts' values at the three experts only. -/
theorem combine_vec (g a bias : Fin 3 → EReal) :
    Cert.Spec.combine g ![a 0, a 1, a 2] bias = Cert.Spec.combine g a bias := rfl

theorem ref_eq_G (x0 : FVec Ideal S100000x64 .f32) (x1 : IVec S2x1600000 32) (x2 : FVec Ideal S100000x4 .f32)
    (x3 : FVec Ideal S3x64x64 .f32) (x4 : FVec Ideal S3x64 .f32) (x5 : FVec Ideal S4x3 .f32)
    (hx : ∀ i, ∃ r : ℝ, x0 i = (r : EReal)) (hw : ∀ i, ∃ r : ℝ, x3 i = (r : EReal))
    (hn : ∀ e : Fin 1700000, ∃ r : ℝ, val_main_v29 (F := Ideal) x1 (ix1 e) = (r : EReal)) :
    val_main_v122 (F := Ideal) x0 x1 x2 x3 x4 x5
      = Cert.Spec.G (Cert.HostPrefix.agg (F := Ideal) x0 x1) x2 x3 x4 x5 := by
  funext i
  obtain ⟨n, o, rfl⟩ : ∃ (n : Fin 100000) (o : Fin 64), i = ix2 n o := ⟨i 0, i 1, eq_ix2 i⟩
  rw [Cert.ReferenceIdeal.RefValue.out_apply, Cert.Bridge.expert0 x0 x1 x3 hx hw hn, Cert.Bridge.expert1 x0 x1 x3 hx hw hn,
    Cert.Bridge.expert2 x0 x1 x3 hx hw hn, G_apply]
  exact combine_vec _ (fun e => ∑ d : Fin 64, Cert.HostPrefix.agg (F := Ideal) x0 x1 (ix2 n d) * x3 (ix3 e d o)) _

end Cert.Result

end
-- ==== Proof.Claims.lean ====
/-
  The five claims.

  The two kernel programs run and leave their arguments unchanged by the pipeline's frame; the reference does by its run.
  The idealized kernel is the kernel's own text read at the exact values (no rewrite to preserve). For the value claim both
  programs end with the layer's formula of the aggregated features: the kernel by its row blocks, the reference entry by
  entry, the aggregation commuting with each expert's matrix because the precondition makes x and W real and the edge
  weights are always real.
-/
import proofs.«171982_j7086696038965_1_alg».proof.Defs
import proofs.«171982_j7086696038965_1_alg».proof.Proof.Gen.Kernel.Frame
import proofs.«171982_j7086696038965_1_alg».proof.Proof.Gen.KernelIdeal.Frame
import proofs.«171982_j7086696038965_1_alg».proof.Proof.Gen.Pre_finite_inputs
import proofs.«171982_j7086696038965_1_alg».proof.Proof.RefRun
import proofs.«171982_j7086696038965_1_alg».proof.Proof.RefRead
import proofs.«171982_j7086696038965_1_alg».proof.Proof.KernelValue
import proofs.«171982_j7086696038965_1_alg».proof.Proof.HostPrefix
import proofs.«171982_j7086696038965_1_alg».proof.Proof.Finite
import proofs.«171982_j7086696038965_1_alg».proof.Proof.Result

noncomputable section

namespace Cert.Proof.Claims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

theorem algebraic : Cert.algebraic_KernelIdeal_ReferenceIdeal := by
  intro m ρ m' ρ' hpre hagree
  refine ⟨fun c => Cert.Spec.G
      (Cert.HostPrefix.agg (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun r h c => ⟨(h c).1.trans ?_, (h c).2⟩)
      (Cert.KernelIdeal.KValue.run m ρ)
    rw [Cert.HostPrefix.V_agg]
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v122_eq, (hagree c).1, (hagree c).2.1, (hagree c).2.2.1, (hagree c).2.2.2.1,
      (hagree c).2.2.2.2.1, (hagree c).2.2.2.2.2]
    exact Cert.Result.ref_eq_G _ _ _ _ _ _
      (Cert.Finite.x_real _ _ _ _ _ _ (hpre c)) (Cert.Finite.w_real _ _ _ _ _ _ (hpre c)) (Cert.Finite.norm_real _)

end Cert.Proof.Claims

end
-- ==== Proof.lean ====
/- The certificate's proof: the five claims (Proof/Claims.lean) behind the witnesses of the programs' stated facts.
   The layer is a gated mixture of three graph-convolution experts; the kernel aggregates the neighbours' features once
   and applies each expert's matrix afterwards, the reference applies the matrices first. -/
import proofs.«171982_j7086696038965_1_alg».proof.Defs
import proofs.«171982_j7086696038965_1_alg».proof.Proof.Gen.Kernel
import proofs.«171982_j7086696038965_1_alg».proof.Proof.Gen.KernelIdeal
import proofs.«171982_j7086696038965_1_alg».proof.Proof.Gen.ReferenceIdeal
import proofs.«171982_j7086696038965_1_alg».proof.Proof.Gen.Pre_finite_inputs
import proofs.«171982_j7086696038965_1_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
